-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S25x8x1x256x256 : Shape := ⟨5, ![25, 8, 1, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S25x8x1x256x256 : S_.BroadcastsInDim S25x8x1x256x256 (![] : Fin 0 → Fin S25x8x1x256x256.rank)
  reducesTo_S25x8x1x256x256_S_d0_1_2_3_4 : S25x8x1x256x256.ReducesTo [0, 1, 2, 3, 4] S_

variable [Facts]

def fn {F : FTy → Type} [FloatOps F] (main_arg0 : FVec F S8x64x256x256 .f32) (main_arg1 : FVec F S25x8x1x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S25x8x1x256x256 .f32 := Host.absf main_arg1
  let main_cst_0 : FVec F S_ .f32 := constant S_ .f32 0x7F800000#32
  let main_v5 : FVec F S25x8x1x256x256 .f32 := broadcastInDim S25x8x1x256x256 ![] bcast_S_S25x8x1x256x256 main_cst_0
  let main_v6 : IVec S25x8x1x256x256 1 := cmpf .olt main_v4 main_v5
  let main_c_1 : IVec S_ 1 := constantI S_ 1 1#1
  let main_v7 : IVec S_ 1 := (fun x v => Host.reduce IntOp.andi x v reducesTo_S25x8x1x256x256_S_d0_1_2_3_4 h_S_) main_v6 main_c_1
  let main_v8 : IVec S_ 1 := andi main_v3 main_v7
  main_v8
-- ==== Kernel.lean ====
abbrev S8x64x256x256 : Shape := ⟨4, ![8, 64, 256, 256]⟩
abbrev S25x8x1x256x256 : Shape := ⟨5, ![25, 8, 1, 256, 256]⟩
abbrev S_ : Shape := ⟨0, ![]⟩
abbrev S8x64x260x260 : Shape := ⟨4, ![8, 64, 260, 260]⟩
abbrev S1x16x260x260 : Shape := ⟨4, ![1, 16, 260, 260]⟩
abbrev S25x1x1x256x256 : Shape := ⟨5, ![25, 1, 1, 256, 256]⟩
abbrev S1x16x256x256 : Shape := ⟨4, ![1, 16, 256, 256]⟩
abbrev S16x256x256 : Shape := ⟨3, ![16, 256, 256]⟩
abbrev S1x1x1x256x256 : Shape := ⟨5, ![1, 1, 1, 256, 256]⟩
abbrev S256x256 : Shape := ⟨2, ![256, 256]⟩
abbrev S1x256x256 : Shape := ⟨3, ![1, 256, 256]⟩

abbrev nBuf : Space → Nat
  | .hbm => 6
  | .vmem => 6
  | .smem => 0
  | _ => 0

abbrev bufTy : (tb : Table) → Fin (tcTables nBuf tb) → BufTy
  | .hbm, ⟨0, _⟩ => ⟨S8x64x256x256, .f32⟩
  | .hbm, ⟨1, _⟩ => ⟨S25x8x1x256x256, .f32⟩
  | .hbm, ⟨2, _⟩ => ⟨S_, .i32⟩
  | .hbm, ⟨3, _⟩ => ⟨S_, .f32⟩
  | .hbm, ⟨4, _⟩ => ⟨S8x64x260x260, .f32⟩
  | .hbm, ⟨5, _⟩ => ⟨S8x64x256x256, .f32⟩
  | .local _ .vmem, ⟨0, _⟩ => ⟨S1x16x260x260, .f32⟩
  | .local _ .vmem, ⟨1, _⟩ => ⟨S1x16x260x260, .f32⟩
  | .local _ .vmem, ⟨2, _⟩ => ⟨S25x1x1x256x256, .f32⟩
  | .local _ .vmem, ⟨3, _⟩ => ⟨S25x1x1x256x256, .f32⟩
  | .local _ .vmem, ⟨4, _⟩ => ⟨S1x16x256x256, .f32⟩
  | .local _ .vmem, ⟨5, _⟩ => ⟨S1x16x256x256, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x260x260 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S25x1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8x64x256x256_S8x64x260x260_000_000_220_220 : S8x64x256x256.Pads (![0, 0, 2, 2] : Fin 4 → Nat) ![0, 0, 2, 2] ![0, 0, 0, 0] S8x64x260x260
  h_S_ : 0 < S_.numel
  inb_S1x16x260x260_S1x16x256x256_0_0_0_0 : ∀ a, (![0, 0, 0, 0] : Fin 4 → Nat) a + S1x16x256x256.size a ≤ S1x16x260x260.size a
  h_S1x16x256x256 : 0 < S1x16x256x256.numel
  shapeCasts_S1x16x256x256_S16x256x256 : S1x16x256x256.ShapeCasts S16x256x256
  inb_S25x1x1x256x256_S1x1x1x256x256_0_0_0_0_0 : ∀ a, (![0, 0, 0, 0, 0] : Fin 5 → Nat) a + S1x1x1x256x256.size a ≤ S25x1x1x256x256.size a
  h_S1x1x1x256x256 : 0 < S1x1x1x256x256.numel
  shapeCasts_S1x1x1x256x256_S256x256 : S1x1x1x256x256.ShapeCasts S256x256
  shapeCasts_S256x256_S1x256x256 : S256x256.ShapeCasts S1x256x256
  broadcasts_S1x256x256_S16x256x256 : S1x256x256.Broadcasts S16x256x256
  inb_S1x16x260x260_S1x16x256x256_0_0_0_1 : ∀ a, (![0, 0, 0, 1] : Fin 4 → Nat) a + S1x16x256x256.size a ≤ S1x16x260x260.size a
  inb_S25x1x1x256x256_S1x1x1x256x256_1_0_0_0_0 : ∀ a, (![1, 0, 0, 0, 0] : Fin 5 → Nat) a + S1x1x1x256x256.size a ≤ S25x1x1x256x256.size a
  inb_S1x16x260x260_S1x16x256x256_0_0_0_2 : ∀ a, (![0, 0, 0, 2] : Fin 4 → Nat) a + S1x16x256x256.size a ≤ S1x16x260x260.size a
  inb_S25x1x1x256x256_S1x1x1x256x256_2_0_0_0_0 : ∀ a, (![2, 0, 0, 0, 0] : Fin 5 → Nat) a + S1x1x1x256x256.size a ≤ S25x1x1x256x256.size a
  inb_S1x16x260x260_S1x16x256x256_0_0_0_3 : ∀ a, (![0, 0, 0, 3] : Fin 4 → Nat) a + S1x16x256x256.size a ≤ S1x16x260x260.size a
  inb_S25x1x1x256x256_S1x1x1x256x256_3_0_0_0_0 : ∀ a, (![3, 0, 0, 0, 0] : Fin 5 → Nat) a + S1x1x1x256x256.size a ≤ S25x1x1x256x256.size a
  inb_S1x16x260x260_S1x16x256x256_0_0_0_4 : ∀ a, (![0, 0, 0, 4] : Fin 4 → Nat) a + S1x16x256x256.size a ≤ S1x16x260x260.size a
  inb_S25x1x1x256x256_S1x1x1x256x256_4_0_0_0_0 : ∀ a, (![4, 0, 0, 0, 0] : Fin 5 → Nat) a + S1x1x1x256x256.size a ≤ S25x1x1x256x256.size a
  inb_S1x16x260x260_S1x16x256x256_0_0_1_0 : ∀ a, (![0, 0, 1, 0] : Fin 4 → Nat) a + S1x16x256x256.size a ≤ S1x16x260x260.size a
  inb_S25x1x1x256x256_S1x1x1x256x256_5_0_0_0_0 : ∀ a, (![5, 0, 0, 0, 0] : Fin 5 → Nat) a + S1x1x1x256x256.size a ≤ S25x1x1x256x256.size a
  inb_S1x16x260x260_S1x16x256x256_0_0_1_1 : ∀ a, (![0, 0, 1, 1] : Fin 4 → Nat) a + S1x16x256x256.size a ≤ S1x16x260x260.size a
  inb_S25x1x1x256x256_S1x1x1x256x256_6_0_0_0_0 : ∀ a, (![6, 0, 0, 0, 0] : Fin 5 → Nat) a + S1x1x1x256x256.size a ≤ S25x1x1x256x256.size a
  inb_S1x16x260x260_S1x16x256x256_0_0_1_2 : ∀ a, (![0, 0, 1, 2] : Fin 4 → Nat) a + S1x16x256x256.size a ≤ S1x16x260x260.size a
  inb_S25x1x1x256x256_S1x1x1x256x256_7_0_0_0_0 : ∀ a, (![7, 0, 0, 0, 0] : Fin 5 → Nat) a + S1x1x1x256x256.size a ≤ S25x1x1x256x256.size a
  inb_S1x16x260x260_S1x16x256x256_0_0_1_3 : ∀ a, (![0, 0, 1, 3] : Fin 4 → Nat) a + S1x16x256x256.size a ≤ S1x16x260x260.size a
  inb_S25x1x1x256x256_S1x1x1x256x256_8_0_0_0_0 : ∀ a, (![8, 0, 0, 0, 0] : Fin 5 → Nat) a + S1x1x1x256x256.size a ≤ S25x1x1x256x256.size a
  inb_S1x16x260x260_S1x16x256x256_0_0_1_4 : ∀ a, (![0, 0, 1, 4] : Fin 4 → Nat) a + S1x16x256x256.size a ≤ S1x16x260x260.size a
  inb_S25x1x1x256x256_S1x1x1x256x256_9_0_0_0_0 : ∀ a, (![9, 0, 0, 0, 0] : Fin 5 → Nat) a + S1x1x1x256x256.size a ≤ S25x1x1x256x256.size a
  inb_S1x16x260x260_S1x16x256x256_0_0_2_0 : ∀ a, (![0, 0, 2, 0] : Fin 4 → Nat) a + S1x16x256x256.size a ≤ S1x16x260x260.size a
  inb_S25x1x1x256x256_S1x1x1x256x256_10_0_0_0_0 : ∀ a, (![10, 0, 0, 0, 0] : Fin 5 → Nat) a + S1x1x1x256x256.size a ≤ S25x1x1x256x256.size a
  inb_S1x16x260x260_S1x16x256x256_0_0_2_1 : ∀ a, (![0, 0, 2, 1] : Fin 4 → Nat) a + S1x16x256x256.size a ≤ S1x16x260x260.size a
  inb_S25x1x1x256x256_S1x1x1x256x256_11_0_0_0_0 : ∀ a, (![11, 0, 0, 0, 0] : Fin 5 → Nat) a + S1x1x1x256x256.size a ≤ S25x1x1x256x256.size a
  inb_S1x16x260x260_S1x16x256x256_0_0_2_2 : ∀ a, (![0, 0, 2, 2] : Fin 4 → Nat) a + S1x16x256x256.size a ≤ S1x16x260x260.size a
  inb_S25x1x1x256x256_S1x1x1x256x256_12_0_0_0_0 : ∀ a, (![12, 0, 0, 0, 0] : Fin 5 → Nat) a + S1x1x1x256x256.size a ≤ S25x1x1x256x256.size a
  inb_S1x16x260x260_S1x16x256x256_0_0_2_3 : ∀ a, (![0, 0, 2, 3] : Fin 4 → Nat) a + S1x16x256x256.size a ≤ S1x16x260x260.size a
  inb_S25x1x1x256x256_S1x1x1x256x256_13_0_0_0_0 : ∀ a, (![13, 0, 0, 0, 0] : Fin 5 → Nat) a + S1x1x1x256x256.size a ≤ S25x1x1x256x256.size a
  inb_S1x16x260x260_S1x16x256x256_0_0_2_4 : ∀ a, (![0, 0, 2, 4] : Fin 4 → Nat) a + S1x16x256x256.size a ≤ S1x16x260x260.size a
  inb_S25x1x1x256x256_S1x1x1x256x256_14_0_0_0_0 : ∀ a, (![14, 0, 0, 0, 0] : Fin 5 → Nat) a + S1x1x1x256x256.size a ≤ S25x1x1x256x256.size a
  inb_S1x16x260x260_S1x16x256x256_0_0_3_0 : ∀ a, (![0, 0, 3, 0] : Fin 4 → Nat) a + S1x16x256x256.size a ≤ S1x16x260x260.size a
  inb_S25x1x1x256x256_S1x1x1x256x256_15_0_0_0_0 : ∀ a, (![15, 0, 0, 0, 0] : Fin 5 → Nat) a + S1x1x1x256x256.size a ≤ S25x1x1x256x256.size a
  inb_S1x16x260x260_S1x16x256x256_0_0_3_1 : ∀ a, (![0, 0, 3, 1] : Fin 4 → Nat) a + S1x16x256x256.size a ≤ S1x16x260x260.size a
  inb_S25x1x1x256x256_S1x1x1x256x256_16_0_0_0_0 : ∀ a, (![16, 0, 0, 0, 0] : Fin 5 → Nat) a + S1x1x1x256x256.size a ≤ S25x1x1x256x256.size a
  inb_S1x16x260x260_S1x16x256x256_0_0_3_2 : ∀ a, (![0, 0, 3, 2] : Fin 4 → Nat) a + S1x16x256x256.size a ≤ S1x16x260x260.size a
  inb_S25x1x1x256x256_S1x1x1x256x256_17_0_0_0_0 : ∀ a, (![17, 0, 0, 0, 0] : Fin 5 → Nat) a + S1x1x1x256x256.size a ≤ S25x1x1x256x256.size a
  inb_S1x16x260x260_S1x16x256x256_0_0_3_3 : ∀ a, (![0, 0, 3, 3] : Fin 4 → Nat) a + S1x16x256x256.size a ≤ S1x16x260x260.size a
  inb_S25x1x1x256x256_S1x1x1x256x256_18_0_0_0_0 : ∀ a, (![18, 0, 0, 0, 0] : Fin 5 → Nat) a + S1x1x1x256x256.size a ≤ S25x1x1x256x256.size a
  inb_S1x16x260x260_S1x16x256x256_0_0_3_4 : ∀ a, (![0, 0, 3, 4] : Fin 4 → Nat) a + S1x16x256x256.size a ≤ S1x16x260x260.size a
  inb_S25x1x1x256x256_S1x1x1x256x256_19_0_0_0_0 : ∀ a, (![19, 0, 0, 0, 0] : Fin 5 → Nat) a + S1x1x1x256x256.size a ≤ S25x1x1x256x256.size a
  inb_S1x16x260x260_S1x16x256x256_0_0_4_0 : ∀ a, (![0, 0, 4, 0] : Fin 4 → Nat) a + S1x16x256x256.size a ≤ S1x16x260x260.size a
  inb_S25x1x1x256x256_S1x1x1x256x256_20_0_0_0_0 : ∀ a, (![20, 0, 0, 0, 0] : Fin 5 → Nat) a + S1x1x1x256x256.size a ≤ S25x1x1x256x256.size a
  inb_S1x16x260x260_S1x16x256x256_0_0_4_1 : ∀ a, (![0, 0, 4, 1] : Fin 4 → Nat) a + S1x16x256x256.size a ≤ S1x16x260x260.size a
  inb_S25x1x1x256x256_S1x1x1x256x256_21_0_0_0_0 : ∀ a, (![21, 0, 0, 0, 0] : Fin 5 → Nat) a + S1x1x1x256x256.size a ≤ S25x1x1x256x256.size a
  inb_S1x16x260x260_S1x16x256x256_0_0_4_2 : ∀ a, (![0, 0, 4, 2] : Fin 4 → Nat) a + S1x16x256x256.size a ≤ S1x16x260x260.size a
  inb_S25x1x1x256x256_S1x1x1x256x256_22_0_0_0_0 : ∀ a, (![22, 0, 0, 0, 0] : Fin 5 → Nat) a + S1x1x1x256x256.size a ≤ S25x1x1x256x256.size a
  inb_S1x16x260x260_S1x16x256x256_0_0_4_3 : ∀ a, (![0, 0, 4, 3] : Fin 4 → Nat) a + S1x16x256x256.size a ≤ S1x16x260x260.size a
  inb_S25x1x1x256x256_S1x1x1x256x256_23_0_0_0_0 : ∀ a, (![23, 0, 0, 0, 0] : Fin 5 → Nat) a + S1x1x1x256x256.size a ≤ S25x1x1x256x256.size a
  inb_S1x16x260x260_S1x16x256x256_0_0_4_4 : ∀ a, (![0, 0, 4, 4] : Fin 4 → Nat) a + S1x16x256x256.size a ≤ S1x16x260x260.size a
  inb_S25x1x1x256x256_S1x1x1x256x256_24_0_0_0_0 : ∀ a, (![24, 0, 0, 0, 0] : Fin 5 → Nat) a + S1x1x1x256x256.size a ≤ S25x1x1x256x256.size a
  inb_S1x16x256x256_S1x16x256x256_0_0_0_0 : ∀ a, (![0, 0, 0, 0] : Fin 4 → Nat) a + S1x16x256x256.size a ≤ S1x16x256x256.size a
  shapeCasts_S16x256x256_S1x16x256x256 : S16x256x256.ShapeCasts S1x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x260x260.size a ≤ S8x64x260x260.size a
  hwx0_0 : ∀ i : grid0.Coords, EltTy.bits .f32 = 32 ∨ (Rect.block (s := S8x64x260x260) S1x16x260x260.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25x1x1x256x256.size a ≤ S25x8x1x256x256.size a
  hwx0_1 : ∀ i : grid0.Coords, EltTy.bits .f32 = 32 ∨ (Rect.block (s := S25x8x1x256x256) S25x1x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x256.size a ≤ S8x64x256x256.size a
  hwx0_2 : ∀ i : grid0.Coords, EltTy.bits .f32 = 32 ∨ (Rect.block (s := S8x64x256x256) S1x16x256x256.size (cc0_transform_2 i) (hinb0_2 i)).WholeWords (EltTy.packing .f32)

variable [Facts₀]

abbrev win0_0 : Pipeline.Window sig grid0 :=
  Pipeline.Window.ofSpec (Memref.whole main_v0) S1x16x260x260.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S25x1x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S25x8x1x256x256 : Shape := ⟨5, ![25, 8, 1, 256, 256]⟩
abbrev S_ : Shape := ⟨0, ![]⟩
abbrev S8x64x260x260 : Shape := ⟨4, ![8, 64, 260, 260]⟩
abbrev S1x8x1x256x256 : Shape := ⟨5, ![1, 8, 1, 256, 256]⟩
abbrev S8x1x256x256 : Shape := ⟨4, ![8, 1, 256, 256]⟩

abbrev nBuf : Space → Nat
  | .hbm => 157
  | .vmem => 0
  | .smem => 0
  | _ => 0

abbrev hbmTy0_0 (i : Nat) : BufTy := match i % 128 with
  | 0 => ⟨S8x64x256x256, .f32⟩
  | 1 => ⟨S25x8x1x256x256, .f32⟩
  | 2 => ⟨S_, .i32⟩
  | 3 => ⟨S_, .f32⟩
  | 4 => ⟨S8x64x260x260, .f32⟩
  | 5 => ⟨S_, .f32⟩
  | 6 => ⟨S8x64x256x256, .f32⟩
  | 7 => ⟨S8x64x256x256, .f32⟩
  | 8 => ⟨S1x8x1x256x256, .f32⟩
  | 9 => ⟨S8x1x256x256, .f32⟩
  | 10 => ⟨S8x64x256x256, .f32⟩
  | 11 => ⟨S8x64x256x256, .f32⟩
  | 12 => ⟨S8x64x256x256, .f32⟩
  | 13 => ⟨S8x64x256x256, .f32⟩
  | 14 => ⟨S1x8x1x256x256, .f32⟩
  | 15 => ⟨S8x1x256x256, .f32⟩
  | 16 => ⟨S8x64x256x256, .f32⟩
  | 17 => ⟨S8x64x256x256, .f32⟩
  | 18 => ⟨S8x64x256x256, .f32⟩
  | 19 => ⟨S8x64x256x256, .f32⟩
  | 20 => ⟨S1x8x1x256x256, .f32⟩
  | 21 => ⟨S8x1x256x256, .f32⟩
  | 22 => ⟨S8x64x256x256, .f32⟩
  | 23 => ⟨S8x64x256x256, .f32⟩
  | 24 => ⟨S8x64x256x256, .f32⟩
  | 25 => ⟨S8x64x256x256, .f32⟩
  | 26 => ⟨S1x8x1x256x256, .f32⟩
  | 27 => ⟨S8x1x256x256, .f32⟩
  | 28 => ⟨S8x64x256x256, .f32⟩
  | 29 => ⟨S8x64x256x256, .f32⟩
  | 30 => ⟨S8x64x256x256, .f32⟩
  | 31 => ⟨S8x64x256x256, .f32⟩
  | 32 => ⟨S1x8x1x256x256, .f32⟩
  | 33 => ⟨S8x1x256x256, .f32⟩
  | 34 => ⟨S8x64x256x256, .f32⟩
  | 35 => ⟨S8x64x256x256, .f32⟩
  | 36 => ⟨S8x64x256x256, .f32⟩
  | 37 => ⟨S8x64x256x256, .f32⟩
  | 38 => ⟨S1x8x1x256x256, .f32⟩
  | 39 => ⟨S8x1x256x256, .f32⟩
  | 40 => ⟨S8x64x256x256, .f32⟩
  | 41 => ⟨S8x64x256x256, .f32⟩
  | 42 => ⟨S8x64x256x256, .f32⟩
  | 43 => ⟨S8x64x256x256, .f32⟩
  | 44 => ⟨S1x8x1x256x256, .f32⟩
  | 45 => ⟨S8x1x256x256, .f32⟩
  | 46 => ⟨S8x64x256x256, .f32⟩
  | 47 => ⟨S8x64x256x256, .f32⟩
  | 48 => ⟨S8x64x256x256, .f32⟩
  | 49 => ⟨S8x64x256x256, .f32⟩
  | 50 => ⟨S1x8x1x256x256, .f32⟩
  | 51 => ⟨S8x1x256x256, .f32⟩
  | 52 => ⟨S8x64x256x256, .f32⟩
  | 53 => ⟨S8x64x256x256, .f32⟩
  | 54 => ⟨S8x64x256x256, .f32⟩
  | 55 => ⟨S8x64x256x256, .f32⟩
  | 56 => ⟨S1x8x1x256x256, .f32⟩
  | 57 => ⟨S8x1x256x256, .f32⟩
  | 58 => ⟨S8x64x256x256, .f32⟩
  | 59 => ⟨S8x64x256x256, .f32⟩
  | 60 => ⟨S8x64x256x256, .f32⟩
  | 61 => ⟨S8x64x256x256, .f32⟩
  | 62 => ⟨S1x8x1x256x256, .f32⟩
  | 63 => ⟨S8x1x256x256, .f32⟩
  | 64 => ⟨S8x64x256x256, .f32⟩
  | 65 => ⟨S8x64x256x256, .f32⟩
  | 66 => ⟨S8x64x256x256, .f32⟩
  | 67 => ⟨S8x64x256x256, .f32⟩
  | 68 => ⟨S1x8x1x256x256, .f32⟩
  | 69 => ⟨S8x1x256x256, .f32⟩
  | 70 => ⟨S8x64x256x256, .f32⟩
  | 71 => ⟨S8x64x256x256, .f32⟩
  | 72 => ⟨S8x64x256x256, .f32⟩
  | 73 => ⟨S8x64x256x256, .f32⟩
  | 74 => ⟨S1x8x1x256x256, .f32⟩
  | 75 => ⟨S8x1x256x256, .f32⟩
  | 76 => ⟨S8x64x256x256, .f32⟩
  | 77 => ⟨S8x64x256x256, .f32⟩
  | 78 => ⟨S8x64x256x256, .f32⟩
  | 79 => ⟨S8x64x256x256, .f32⟩
  | 80 => ⟨S1x8x1x256x256, .f32⟩
  | 81 => ⟨S8x1x256x256, .f32⟩
  | 82 => ⟨S8x64x256x256, .f32⟩
  | 83 => ⟨S8x64x256x256, .f32⟩
  | 84 => ⟨S8x64x256x256, .f32⟩
  | 85 => ⟨S8x64x256x256, .f32⟩
  | 86 => ⟨S1x8x1x256x256, .f32⟩
  | 87 => ⟨S8x1x256x256, .f32⟩
  | 88 => ⟨S8x64x256x256, .f32⟩
  | 89 => ⟨S8x64x256x256, .f32⟩
  | 90 => ⟨S8x64x256x256, .f32⟩
  | 91 => ⟨S8x64x256x256, .f32⟩
  | 92 => ⟨S1x8x1x256x256, .f32⟩
  | 93 => ⟨S8x1x256x256, .f32⟩
  | 94 => ⟨S8x64x256x256, .f32⟩
  | 95 => ⟨S8x64x256x256, .f32⟩
  | 96 => ⟨S8x64x256x256, .f32⟩
  | 97 => ⟨S8x64x256x256, .f32⟩
  | 98 => ⟨S1x8x1x256x256, .f32⟩
  | 99 => ⟨S8x1x256x256, .f32⟩
  | 100 => ⟨S8x64x256x256, .f32⟩
  | 101 => ⟨S8x64x256x256, .f32⟩
  | 102 => ⟨S8x64x256x256, .f32⟩
  | 103 => ⟨S8x64x256x256, .f32⟩
  | 104 => ⟨S1x8x1x256x256, .f32⟩
  | 105 => ⟨S8x1x256x256, .f32⟩
  | 106 => ⟨S8x64x256x256, .f32⟩
  | 107 => ⟨S8x64x256x256, .f32⟩
  | 108 => ⟨S8x64x256x256, .f32⟩
  | 109 => ⟨S8x64x256x256, .f32⟩
  | 110 => ⟨S1x8x1x256x256, .f32⟩
  | 111 => ⟨S8x1x256x256, .f32⟩
  | 112 => ⟨S8x64x256x256, .f32⟩
  | 113 => ⟨S8x64x256x256, .f32⟩
  | 114 => ⟨S8x64x256x256, .f32⟩
  | 115 => ⟨S8x64x256x256, .f32⟩
  | 116 => ⟨S1x8x1x256x256, .f32⟩
  | 117 => ⟨S8x1x256x256, .f32⟩
  | 118 => ⟨S8x64x256x256, .f32⟩
  | 119 => ⟨S8x64x256x256, .f32⟩
  | 120 => ⟨S8x64x256x256, .f32⟩
  | 121 => ⟨S8x64x256x256, .f32⟩
  | 122 => ⟨S1x8x1x256x256, .f32⟩
  | 123 => ⟨S8x1x256x256, .f32⟩
  | 124 => ⟨S8x64x256x256, .f32⟩
  | 125 => ⟨S8x64x256x256, .f32⟩
  | 126 => ⟨S8x64x256x256, .f32⟩
  | 127 => ⟨S8x64x256x256, .f32⟩
  | _ => ⟨S8x64x256x256, .f32⟩

abbrev hbmTy0_1 (i : Nat) : BufTy := match i % 128 with
  | 0 => ⟨S1x8x1x256x256, .f32⟩
  | 1 => ⟨S8x1x256x256, .f32⟩
  | 2 => ⟨S8x64x256x256, .f32⟩
  | 3 => ⟨S8x64x256x256, .f32⟩
  | 4 => ⟨S8x64x256x256, .f32⟩
  | 5 => ⟨S8x64x256x256, .f32⟩
  | 6 => ⟨S1x8x1x256x256, .f32⟩
  | 7 => ⟨S8x1x256x256, .f32⟩
  | 8 => ⟨S8x64x256x256, .f32⟩
  | 9 => ⟨S8x64x256x256, .f32⟩
  | 10 => ⟨S8x64x256x256, .f32⟩
  | 11 => ⟨S8x64x256x256, .f32⟩
  | 12 => ⟨S1x8x1x256x256, .f32⟩
  | 13 => ⟨S8x1x256x256, .f32⟩
  | 14 => ⟨S8x64x256x256, .f32⟩
  | 15 => ⟨S8x64x256x256, .f32⟩
  | 16 => ⟨S8x64x256x256, .f32⟩
  | 17 => ⟨S8x64x256x256, .f32⟩
  | 18 => ⟨S1x8x1x256x256, .f32⟩
  | 19 => ⟨S8x1x256x256, .f32⟩
  | 20 => ⟨S8x64x256x256, .f32⟩
  | 21 => ⟨S8x64x256x256, .f32⟩
  | 22 => ⟨S8x64x256x256, .f32⟩
  | 23 => ⟨S8x64x256x256, .f32⟩
  | 24 => ⟨S1x8x1x256x256, .f32⟩
  | 25 => ⟨S8x1x256x256, .f32⟩
  | 26 => ⟨S8x64x256x256, .f32⟩
  | 27 => ⟨S8x64x256x256, .f32⟩
  | 28 => ⟨S8x64x256x256, .f32⟩
  | _ => ⟨S8x64x256x256, .f32⟩

abbrev hbmTy (i : Nat) : BufTy := match i / 128 with
  | 0 => hbmTy0_0 i
  | 1 => hbmTy0_1 i
  | _ => ⟨S8x64x256x256, .f32⟩

abbrev bufTy : (tb : Table) → Fin (tcTables nBuf tb) → BufTy
  | .hbm, ⟨i, _⟩ => hbmTy i
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩

abbrev nD : Nat := 1
abbrev τ : Topo := Topo.v7x

variable {F : FTy → Type} [FloatOps F]

class Facts₀ : Prop where
  pads_S8x64x256x256_S8x64x260x260_000_000_220_220 : S8x64x256x256.Pads (![0, 0, 2, 2] : Fin 4 → Nat) ![0, 0, 2, 2] ![0, 0, 0, 0] S8x64x260x260
  h_S_ : 0 < S_.numel
  bcast_S_S8x64x256x256 : S_.BroadcastsInDim S8x64x256x256 (![] : Fin 0 → Fin S8x64x256x256.rank)
  slices_S8x64x260x260_S8x64x256x256_0_0_0_0 : S8x64x260x260.Slices ![0, 0, 0, 0] S8x64x256x256
  slices_S25x8x1x256x256_S1x8x1x256x256_0_0_0_0_0 : S25x8x1x256x256.Slices ![0, 0, 0, 0, 0] S1x8x1x256x256
  shapeCasts_S1x8x1x256x256_S8x1x256x256 : S1x8x1x256x256.ShapeCasts S8x1x256x256
  bcast_S8x1x256x256_S8x64x256x256_0_1_2_3 : S8x1x256x256.BroadcastsInDim S8x64x256x256 (![0, 1, 2, 3] : Fin 4 → Fin S8x64x256x256.rank)
  slices_S8x64x260x260_S8x64x256x256_0_0_0_1 : S8x64x260x260.Slices ![0, 0, 0, 1] S8x64x256x256
  slices_S25x8x1x256x256_S1x8x1x256x256_1_0_0_0_0 : S25x8x1x256x256.Slices ![1, 0, 0, 0, 0] S1x8x1x256x256
  slices_S8x64x260x260_S8x64x256x256_0_0_0_2 : S8x64x260x260.Slices ![0, 0, 0, 2] S8x64x256x256
  slices_S25x8x1x256x256_S1x8x1x256x256_2_0_0_0_0 : S25x8x1x256x256.Slices ![2, 0, 0, 0, 0] S1x8x1x256x256
  slices_S8x64x260x260_S8x64x256x256_0_0_0_3 : S8x64x260x260.Slices ![0, 0, 0, 3] S8x64x256x256
  slices_S25x8x1x256x256_S1x8x1x256x256_3_0_0_0_0 : S25x8x1x256x256.Slices ![3, 0, 0, 0, 0] S1x8x1x256x256
  slices_S8x64x260x260_S8x64x256x256_0_0_0_4 : S8x64x260x260.Slices ![0, 0, 0, 4] S8x64x256x256
  slices_S25x8x1x256x256_S1x8x1x256x256_4_0_0_0_0 : S25x8x1x256x256.Slices ![4, 0, 0, 0, 0] S1x8x1x256x256
  slices_S8x64x260x260_S8x64x256x256_0_0_1_0 : S8x64x260x260.Slices ![0, 0, 1, 0] S8x64x256x256
  slices_S25x8x1x256x256_S1x8x1x256x256_5_0_0_0_0 : S25x8x1x256x256.Slices ![5, 0, 0, 0, 0] S1x8x1x256x256
  slices_S8x64x260x260_S8x64x256x256_0_0_1_1 : S8x64x260x260.Slices ![0, 0, 1, 1] S8x64x256x256
  slices_S25x8x1x256x256_S1x8x1x256x256_6_0_0_0_0 : S25x8x1x256x256.Slices ![6, 0, 0, 0, 0] S1x8x1x256x256
  slices_S8x64x260x260_S8x64x256x256_0_0_1_2 : S8x64x260x260.Slices ![0, 0, 1, 2] S8x64x256x256
  slices_S25x8x1x256x256_S1x8x1x256x256_7_0_0_0_0 : S25x8x1x256x256.Slices ![7, 0, 0, 0, 0] S1x8x1x256x256
  slices_S8x64x260x260_S8x64x256x256_0_0_1_3 : S8x64x260x260.Slices ![0, 0, 1, 3] S8x64x256x256
  slices_S25x8x1x256x256_S1x8x1x256x256_8_0_0_0_0 : S25x8x1x256x256.Slices ![8, 0, 0, 0, 0] S1x8x1x256x256
  slices_S8x64x260x260_S8x64x256x256_0_0_1_4 : S8x64x260x260.Slices ![0, 0, 1, 4] S8x64x256x256
  slices_S25x8x1x256x256_S1x8x1x256x256_9_0_0_0_0 : S25x8x1x256x256.Slices ![9, 0, 0, 0, 0] S1x8x1x256x256
  slices_S8x64x260x260_S8x64x256x256_0_0_2_0 : S8x64x260x260.Slices ![0, 0, 2, 0] S8x64x256x256
  slices_S25x8x1x256x256_S1x8x1x256x256_10_0_0_0_0 : S25x8x1x256x256.Slices ![10, 0, 0, 0, 0] S1x8x1x256x256
  slices_S8x64x260x260_S8x64x256x256_0_0_2_1 : S8x64x260x260.Slices ![0, 0, 2, 1] S8x64x256x256
  slices_S25x8x1x256x256_S1x8x1x256x256_11_0_0_0_0 : S25x8x1x256x256.Slices ![11, 0, 0, 0, 0] S1x8x1x256x256
  slices_S8x64x260x260_S8x64x256x256_0_0_2_2 : S8x64x260x260.Slices ![0, 0, 2, 2] S8x64x256x256
  slices_S25x8x1x256x256_S1x8x1x256x256_12_0_0_0_0 : S25x8x1x256x256.Slices ![12, 0, 0, 0, 0] S1x8x1x256x256
  slices_S8x64x260x260_S8x64x256x256_0_0_2_3 : S8x64x260x260.Slices ![0, 0, 2, 3] S8x64x256x256
  slices_S25x8x1x256x256_S1x8x1x256x256_13_0_0_0_0 : S25x8x1x256x256.Slices ![13, 0, 0, 0, 0] S1x8x1x256x256
  slices_S8x64x260x260_S8x64x256x256_0_0_2_4 : S8x64x260x260.Slices ![0, 0, 2, 4] S8x64x256x256
  slices_S25x8x1x256x256_S1x8x1x256x256_14_0_0_0_0 : S25x8x1x256x256.Slices ![14, 0, 0, 0, 0] S1x8x1x256x256
  slices_S8x64x260x260_S8x64x256x256_0_0_3_0 : S8x64x260x260.Slices ![0, 0, 3, 0] S8x64x256x256
  slices_S25x8x1x256x256_S1x8x1x256x256_15_0_0_0_0 : S25x8x1x256x256.Slices ![15, 0, 0, 0, 0] S1x8x1x256x256
  slices_S8x64x260x260_S8x64x256x256_0_0_3_1 : S8x64x260x260.Slices ![0, 0, 3, 1] S8x64x256x256
  slices_S25x8x1x256x256_S1x8x1x256x256_16_0_0_0_0 : S25x8x1x256x256.Slices ![16, 0, 0, 0, 0] S1x8x1x256x256
  slices_S8x64x260x260_S8x64x256x256_0_0_3_2 : S8x64x260x260.Slices ![0, 0, 3, 2] S8x64x256x256
  slices_S25x8x1x256x256_S1x8x1x256x256_17_0_0_0_0 : S25x8x1x256x256.Slices ![17, 0, 0, 0, 0] S1x8x1x256x256
  slices_S8x64x260x260_S8x64x256x256_0_0_3_3 : S8x64x260x260.Slices ![0, 0, 3, 3] S8x64x256x256
  slices_S25x8x1x256x256_S1x8x1x256x256_18_0_0_0_0 : S25x8x1x256x256.Slices ![18, 0, 0, 0, 0] S1x8x1x256x256
  slices_S8x64x260x260_S8x64x256x256_0_0_3_4 : S8x64x260x260.Slices ![0, 0, 3, 4] S8x64x256x256
  slices_S25x8x1x256x256_S1x8x1x256x256_19_0_0_0_0 : S25x8x1x256x256.Slices ![19, 0, 0, 0, 0] S1x8x1x256x256
  slices_S8x64x260x260_S8x64x256x256_0_0_4_0 : S8x64x260x260.Slices ![0, 0, 4, 0] S8x64x256x256
  slices_S25x8x1x256x256_S1x8x1x256x256_20_0_0_0_0 : S25x8x1x256x256.Slices ![20, 0, 0, 0, 0] S1x8x1x256x256
  slices_S8x64x260x260_S8x64x256x256_0_0_4_1 : S8x64x260x260.Slices ![0, 0, 4, 1] S8x64x256x256
  slices_S25x8x1x256x256_S1x8x1x256x256_21_0_0_0_0 : S25x8x1x256x256.Slices ![21, 0, 0, 0, 0] S1x8x1x256x256
  slices_S8x64x260x260_S8x64x256x256_0_0_4_2 : S8x64x260x260.Slices ![0, 0, 4, 2] S8x64x256x256
  slices_S25x8x1x256x256_S1x8x1x256x256_22_0_0_0_0 : S25x8x1x256x256.Slices ![22, 0, 0, 0, 0] S1x8x1x256x256
  slices_S8x64x260x260_S8x64x256x256_0_0_4_3 : S8x64x260x260.Slices ![0, 0, 4, 3] S8x64x256x256
  slices_S25x8x1x256x256_S1x8x1x256x256_23_0_0_0_0 : S25x8x1x256x256.Slices ![23, 0, 0, 0, 0] S1x8x1x256x256
  slices_S8x64x260x260_S8x64x256x256_0_0_4_4 : S8x64x260x260.Slices ![0, 0, 4, 4] S8x64x256x256
  slices_S25x8x1x256x256_S1x8x1x256x256_24_0_0_0_0 : S25x8x1x256x256.Slices ![24, 0, 0, 0, 0] S1x8x1x256x256

variable [Facts₀]

class Facts : Prop extends Facts₀ where

variable [Facts]
-- ==== Proof.WindowSum.lean ====
/-
  The mathematics of a 5×5 shifted-window multiply-accumulate with per-pixel weights shared across channels.

  Given a zero-padded array `xp` of shape [8, 64, 260, 260] and weights `wt` of shape [25, 8, 1, 256, 256], the result
  at (b, c, h, w) is the sum over the 25 taps (p, q), p the row offset and q the column offset, of
  `xp[b, c, h + p, w + q] · wt[5p + q, b, 0, h, w]`, accumulated onto zero from the LEFT in row-major tap order:
  ((((0 + t₀₀) + t₀₁) + …) + t₄₄). Both programs add the taps in exactly this order, so the statement is made over an
  arbitrary float instance and never needs a law of addition.
-/
import Idealize.ShloMosaic.Lib.ValueIdx

noncomputable section

namespace Cert.WindowSum

open Idealize.ShloMosaic Idealize.ShloMosaic.ValueIdx

variable {F : FTy → Type} [FloatOps F]

/-- The padded input's shape, the result's shape and the weights' shape. -/
abbrev SPad : Shape := ⟨4, ![8, 64, 260, 260]⟩
abbrev SOut : Shape := ⟨4, ![8, 64, 256, 256]⟩
abbrev SWt : Shape := ⟨5, ![25, 8, 1, 256, 256]⟩

/-- A family over the 5×5 taps added onto `z` from the left, rows of taps first:
    ((((z + f 0 0) + f 0 1) + … + f 0 4) + f 1 0) + … + f 4 4. -/
def fold25 (z : F .f32) (f : (p q : ℕ) → p ≤ 4 → q ≤ 4 → F .f32) : F .f32 :=
  FloatOps.addf (FloatOps.addf (FloatOps.addf (FloatOps.addf (FloatOps.addf
  (FloatOps.addf (FloatOps.addf (FloatOps.addf (FloatOps.addf (FloatOps.addf
  (FloatOps.addf (FloatOps.addf (FloatOps.addf (FloatOps.addf (FloatOps.addf
  (FloatOps.addf (FloatOps.addf (FloatOps.addf (FloatOps.addf (FloatOps.addf
  (FloatOps.addf (FloatOps.addf (FloatOps.addf (FloatOps.addf (FloatOps.addf z
    (f 0 0 (by omega) (by omega))) (f 0 1 (by omega) (by omega))) (f 0 2 (by omega) (by omega))) (f 0 3 (by omega) (by omega))) (f 0 4 (by omega) (by omega)))
    (f 1 0 (by omega) (by omega))) (f 1 1 (by omega) (by omega))) (f 1 2 (by omega) (by omega))) (f 1 3 (by omega) (by omega))) (f 1 4 (by omega) (by omega)))
    (f 2 0 (by omega) (by omega))) (f 2 1 (by omega) (by omega))) (f 2 2 (by omega) (by omega))) (f 2 3 (by omega) (by omega))) (f 2 4 (by omega) (by omega)))
    (f 3 0 (by omega) (by omega))) (f 3 1 (by omega) (by omega))) (f 3 2 (by omega) (by omega))) (f 3 3 (by omega) (by omega))) (f 3 4 (by omega) (by omega)))
    (f 4 0 (by omega) (by omega))) (f 4 1 (by omega) (by omega))) (f 4 2 (by omega) (by omega))) (f 4 3 (by omega) (by omega))) (f 4 4 (by omega) (by omega))

/-- Two families that agree tap by tap have the same sum. -/
theorem fold25_congr (z : F .f32) (f g : (p q : ℕ) → p ≤ 4 → q ≤ 4 → F .f32)
    (h : ∀ p q hp hq, f p q hp hq = g p q hp hq) : fold25 z f = fold25 z g := by
  have e : f = g := funext fun p => funext fun q => funext fun hp => funext fun hq => h p q hp hq
  rw [e]

/-- Where result index `i = (b, c, h, w)` reads the padded array for tap `(p, q)`: at `(b, c, h + p, w + q)`. -/
def padAt (p q : ℕ) (hp : p ≤ 4) (hq : q ≤ 4) (i : SOut.Idx) : SPad.Idx :=
  ix4 (⟨(i 0).val, (i 0).isLt⟩ : Fin 8) (⟨(i 1).val, (i 1).isLt⟩ : Fin 64)
    (⟨(i 2).val + p, by have h : (i 2).val < 256 := (i 2).isLt; omega⟩ : Fin 260)
    (⟨(i 3).val + q, by have h : (i 3).val < 256 := (i 3).isLt; omega⟩ : Fin 260)

/-- Where it reads the weights: tap `5p + q`, the result's batch `b` and pixel `(h, w)`; the channel is not read. -/
def wtAt (p q : ℕ) (hp : p ≤ 4) (hq : q ≤ 4) (i : SOut.Idx) : SWt.Idx :=
  ix5 (⟨5 * p + q, by omega⟩ : Fin 25) (⟨(i 0).val, (i 0).isLt⟩ : Fin 8) (0 : Fin 1)
    (⟨(i 2).val, (i 2).isLt⟩ : Fin 256) (⟨(i 3).val, (i 3).isLt⟩ : Fin 256)

/-- One tap's product at result index `i`. -/
def tap (xp : SPad.Idx → F .f32) (wt : SWt.Idx → F .f32) (i : SOut.Idx) (p q : ℕ) (hp : p ≤ 4) (hq : q ≤ 4) : F .f32 :=
  FloatOps.mulf (xp (padAt p q hp hq i)) (wt (wtAt p q hp hq i))

/-- THE RESULT as one function of the padded array and the weights, index by index. -/
def windowSum (xp : SPad.Idx → F .f32) (wt : SWt.Idx → F .f32) : SOut.Idx → F .f32 := fun i =>
  fold25 (FloatOps.ofBits .f32 0x00000000#32) (tap xp wt i)

end Cert.WindowSum

end
-- ==== Proof.KernelTap.lean ====
/-
  WHAT THE KERNEL BODY LEAVES IN ITS OUTPUT BLOCK, read at an index. At a grid point the body holds a block of the
  padded array, [1, 16, 260, 260] (one batch entry, sixteen channels, every padded row and column), and that batch
  entry's 25 weight planes, [25, 1, 1, 256, 256]. For each tap (p, q) it loads the [1, 16, 256, 256] window of the padded
  block at offsets (0, 0, p, q) and weight plane 5p + q, drops the block's unit axes, spreads the plane over the sixteen
  channels, multiplies, and adds the product to an accumulator that starts at zero — the taps in row-major order, from
  the left —, and stores the accumulator as the whole output block. So at block index (0, c, h, w) the block holds
  the window sum over the block: zero plus the 25 products `x[0, c, h + p, w + q] · wts[5p + q, 0, 0, h, w]`.
-/
import proofs.«153330_j18502719111479_1_alg».proof.Proof.Gen.KernelIdeal.Frame
import proofs.«153330_j18502719111479_1_alg».proof.Proof.WindowSum
import Idealize.ShloMosaic.Lib.Pipeline.Value

noncomputable section

namespace Cert.KernelIdeal.Block

open Cert.KernelIdeal Cert.KernelIdeal.Gen Idealize.ShloMosaic Idealize.ShloMosaic.TcCoe Idealize.ShloMosaic.ValueIdx Cert.WindowSum

variable {F : FTy → Type} [FloatOps F]

/-! ## One tap over a block -/

/-- Where output-block index `y = (0, c, h, w)` reads the padded block for tap (p, q): at (0, c, h + p, w + q). -/
def blkPadAt (p q : ℕ) (hp : p ≤ 4) (hq : q ≤ 4) (y : S1x16x256x256.Idx) : S1x16x260x260.Idx :=
  ix4 (0 : Fin 1) (⟨(y 1).val, (y 1).isLt⟩ : Fin 16)
    (⟨(y 2).val + p, by have h : (y 2).val < 256 := (y 2).isLt; omega⟩ : Fin 260)
    (⟨(y 3).val + q, by have h : (y 3).val < 256 := (y 3).isLt; omega⟩ : Fin 260)

/-- Where it reads the weight planes: plane 5p + q at pixel (h, w). -/
def blkWtAt (p q : ℕ) (hp : p ≤ 4) (hq : q ≤ 4) (y : S1x16x256x256.Idx) : S25x1x1x256x256.Idx :=
  ix5 (⟨5 * p + q, by omega⟩ : Fin 25) (0 : Fin 1) (0 : Fin 1) (⟨(y 2).val, (y 2).isLt⟩ : Fin 256) (⟨(y 3).val, (y 3).isLt⟩ : Fin 256)

/-- One tap's product at output-block index `y`. -/
def blkTap (x0 : Vec F S1x16x260x260 .f32) (x1 : Vec F S25x1x1x256x256 .f32) (y : S1x16x256x256.Idx)
    (p q : ℕ) (hp : p ≤ 4) (hq : q ≤ 4) : F .f32 :=
  FloatOps.mulf (x0 (blkPadAt p q hp hq y)) (x1 (blkWtAt p q hp hq y))

/-- A [16, 256, 256] index as the output block's, the batch axis restored. -/
abbrev lift (z : S16x256x256.Idx) : S1x16x256x256.Idx :=
  ix4 (0 : Fin 1) (⟨(z 0).val, (z 0).isLt⟩ : Fin 16) (⟨(z 1).val, (z 1).isLt⟩ : Fin 256) (⟨(z 2).val, (z 2).isLt⟩ : Fin 256)

/-- One tap as the body computes it: the padded block's window loaded at `off` with its unit axis dropped, times the
    weight plane loaded at `koff`, its unit axes dropped, spread over the sixteen channels. -/
def tapK (x0 : Vec F S1x16x260x260 .f32) (x1 : Vec F S25x1x1x256x256 .f32) (off : Fin 4 → ℕ) (koff : Fin 5 → ℕ)
    (inb : ∀ a, off a + S1x16x256x256.size a ≤ S1x16x260x260.size a)
    (inb' : ∀ a, koff a + S1x1x1x256x256.size a ≤ S25x1x1x256x256.size a) : FVec F S16x256x256 .f32 :=
  mulf (shapeCast S16x256x256 (View.ld x0 (Rect.unit (s := S1x16x260x260) off S1x16x256x256.size inb)) shapeCasts_S1x16x256x256_S16x256x256)
    (broadcastTo S16x256x256 (shapeCast S1x256x256 (shapeCast S256x256
      (View.ld x1 (Rect.unit (s := S25x1x1x256x256) koff S1x1x1x256x256.size inb')) shapeCasts_S1x1x1x256x256_S256x256)
      shapeCasts_S256x256_S1x256x256) broadcasts_S1x256x256_S16x256x256)

/-- The tap (p, q), k = 5p + q, at index z of the accumulator is the block's tap at the lifted index. -/
theorem tapK_apply (p q k : ℕ) (hp : p ≤ 4) (hq : q ≤ 4) (hk : k = 5 * p + q)
    (x0 : Vec F S1x16x260x260 .f32) (x1 : Vec F S25x1x1x256x256 .f32)
    (inb : ∀ a, (![0, 0, p, q] : Fin 4 → ℕ) a + S1x16x256x256.size a ≤ S1x16x260x260.size a)
    (inb' : ∀ a, (![k, 0, 0, 0, 0] : Fin 5 → ℕ) a + S1x1x1x256x256.size a ≤ S25x1x1x256x256.size a) :
    tapK x0 x1 ![0, 0, p, q] ![k, 0, 0, 0, 0] inb inb' = fun z => blkTap x0 x1 (lift z) p q hp hq := by
  subst hk
  funext z
  have h0 : (z 0).val < 16 := (z 0).isLt
  have h1 : (z 1).val < 256 := (z 1).isLt
  have h2 : (z 2).val < 256 := (z 2).isLt
  -- the weight plane's index as [1, 256, 256], as [256, 256] and as the loaded [1, 1, 1, 256, 256]
  let j3 : S1x256x256.Idx := ix3 (0 : Fin 1) (⟨(z 1).val, h1⟩ : Fin 256) (⟨(z 2).val, h2⟩ : Fin 256)
  let j2 : S256x256.Idx := ix2 (⟨(z 1).val, h1⟩ : Fin 256) (⟨(z 2).val, h2⟩ : Fin 256)
  let j5 : S1x1x1x256x256.Idx := ix5 (0 : Fin 1) (0 : Fin 1) (0 : Fin 1) (⟨(z 1).val, h1⟩ : Fin 256) (⟨(z 2).val, h2⟩ : Fin 256)
  show FloatOps.mulf
      (shapeCast S16x256x256 (View.ld x0 (Rect.unit (s := S1x16x260x260) ![0, 0, p, q] S1x16x256x256.size inb)) shapeCasts_S1x16x256x256_S16x256x256 z)
      (broadcastTo S16x256x256 (shapeCast S1x256x256 (shapeCast S256x256
        (View.ld x1 (Rect.unit (s := S25x1x1x256x256) ![5 * p + q, 0, 0, 0, 0] S1x1x1x256x256.size inb')) shapeCasts_S1x1x1x256x256_S256x256)
        shapeCasts_S256x256_S1x256x256) broadcasts_S1x256x256_S16x256x256 z)
    = FloatOps.mulf (x0 (blkPadAt p q hp hq (lift z))) (x1 (blkWtAt p q hp hq (lift z)))
  refine congrArg₂ FloatOps.mulf ?_ ?_
  · refine (shapeCast_apply _ shapeCasts_S1x16x256x256_S16x256x256 z (lift z) (by
      rewrite [Shape.rowMajor_val_four, Shape.rowMajor_val_three]
      show ((0 * 16 + (z 0).val) * 256 + (z 1).val) * 256 + (z 2).val = ((z 0).val * 256 + (z 1).val) * 256 + (z 2).val
      omega)).trans ?_
    show x0 _ = x0 _
    refine congrArg x0 (funext fun a => Fin.ext ?_)
    match a with
    | ⟨0, _⟩ => show 0 + 1 * 0 = 0; omega
    | ⟨1, _⟩ => show 0 + 1 * (z 0).val = (z 0).val; omega
    | ⟨2, _⟩ => show p + 1 * (z 1).val = (z 1).val + p; omega
    | ⟨3, _⟩ => show q + 1 * (z 2).val = (z 2).val + q; omega
  · refine (broadcastTo_apply _ broadcasts_S1x256x256_S16x256x256 z j3 (fun a => match a with
      | ⟨0, _⟩ => by show 0 = if (1 : Nat) = 1 then 0 else (z 0).val; rw [if_pos rfl]
      | ⟨1, _⟩ => by show (z 1).val = if (256 : Nat) = 1 then 0 else (z 1).val; rw [if_neg (by decide)]
      | ⟨2, _⟩ => by show (z 2).val = if (256 : Nat) = 1 then 0 else (z 2).val; rw [if_neg (by decide)])).trans ?_
    refine (shapeCast_apply _ shapeCasts_S256x256_S1x256x256 j3 j2 (by
      rewrite [Shape.rowMajor_val_two, Shape.rowMajor_val_three]
      show (z 1).val * 256 + (z 2).val = ((0 * 256 + (z 1).val) * 256 + (z 2).val)
      omega)).trans ?_
    refine (shapeCast_apply _ shapeCasts_S1x1x1x256x256_S256x256 j2 j5 (by
      rewrite [Shape.rowMajor_val_five, Shape.rowMajor_val_two]
      show (((0 * 1 + 0) * 1 + 0) * 256 + (z 1).val) * 256 + (z 2).val = (z 1).val * 256 + (z 2).val
      omega)).trans ?_
    show x1 _ = x1 _
    refine congrArg x1 (funext fun a => Fin.ext ?_)
    match a with
    | ⟨0, _⟩ => show 5 * p + q + 1 * 0 = 5 * p + q; omega
    | ⟨1, _⟩ => show 0 + 1 * 0 = 0; omega
    | ⟨2, _⟩ => show 0 + 1 * 0 = 0; omega
    | ⟨3, _⟩ => show 0 + 1 * (z 1).val = (z 1).val; omega
    | ⟨4, _⟩ => show 0 + 1 * (z 2).val = (z 2).val; omega

end Cert.KernelIdeal.Block

end
-- ==== Proof.KernelBlock.lean ====
/-
  THE OUTPUT BLOCK AS ONE FUNCTION. The body's one store writes the whole output block with the accumulator, the
  block's unit batch axis restored; the accumulator is zero plus the 25 taps' products added from the left in row-major
  tap order. Read at a block index (0, c, h, w) — the reshape keeps the row-major position — it is the window sum over
  the block: each tap by the one-tap lemma, the nest of sums the specification's fold by unfolding.
-/
import proofs.«153330_j18502719111479_1_alg».proof.Proof.KernelTap

noncomputable section

namespace Cert.KernelIdeal.Block

open Cert.KernelIdeal Cert.KernelIdeal.Gen Idealize.ShloMosaic Idealize.ShloMosaic.TcCoe Idealize.ShloMosaic.ValueIdx Cert.WindowSum

variable {F : FTy → Type} [FloatOps F]

/-- The accumulator the body stores: zeros, then the 25 taps in row-major order, each added from the left. -/
def accK (x0 : Vec F S1x16x260x260 .f32) (x1 : Vec F S25x1x1x256x256 .f32) : FVec F S16x256x256 .f32 :=
  addf (addf (addf (addf (addf (addf (addf (addf (addf (addf (addf (addf (addf (addf (addf (addf (addf (addf (addf (addf
  (addf (addf (addf (addf (addf (broadcast S16x256x256 (Scalar.ofBits .f32 0x00000000#32))
      (tapK x0 x1 ![0, 0, 0, 0] ![0, 0, 0, 0, 0] inb_S1x16x260x260_S1x16x256x256_0_0_0_0 inb_S25x1x1x256x256_S1x1x1x256x256_0_0_0_0_0))
      (tapK x0 x1 ![0, 0, 0, 1] ![1, 0, 0, 0, 0] inb_S1x16x260x260_S1x16x256x256_0_0_0_1 inb_S25x1x1x256x256_S1x1x1x256x256_1_0_0_0_0))
      (tapK x0 x1 ![0, 0, 0, 2] ![2, 0, 0, 0, 0] inb_S1x16x260x260_S1x16x256x256_0_0_0_2 inb_S25x1x1x256x256_S1x1x1x256x256_2_0_0_0_0))
      (tapK x0 x1 ![0, 0, 0, 3] ![3, 0, 0, 0, 0] inb_S1x16x260x260_S1x16x256x256_0_0_0_3 inb_S25x1x1x256x256_S1x1x1x256x256_3_0_0_0_0))
      (tapK x0 x1 ![0, 0, 0, 4] ![4, 0, 0, 0, 0] inb_S1x16x260x260_S1x16x256x256_0_0_0_4 inb_S25x1x1x256x256_S1x1x1x256x256_4_0_0_0_0))
      (tapK x0 x1 ![0, 0, 1, 0] ![5, 0, 0, 0, 0] inb_S1x16x260x260_S1x16x256x256_0_0_1_0 inb_S25x1x1x256x256_S1x1x1x256x256_5_0_0_0_0))
      (tapK x0 x1 ![0, 0, 1, 1] ![6, 0, 0, 0, 0] inb_S1x16x260x260_S1x16x256x256_0_0_1_1 inb_S25x1x1x256x256_S1x1x1x256x256_6_0_0_0_0))
      (tapK x0 x1 ![0, 0, 1, 2] ![7, 0, 0, 0, 0] inb_S1x16x260x260_S1x16x256x256_0_0_1_2 inb_S25x1x1x256x256_S1x1x1x256x256_7_0_0_0_0))
      (tapK x0 x1 ![0, 0, 1, 3] ![8, 0, 0, 0, 0] inb_S1x16x260x260_S1x16x256x256_0_0_1_3 inb_S25x1x1x256x256_S1x1x1x256x256_8_0_0_0_0))
      (tapK x0 x1 ![0, 0, 1, 4] ![9, 0, 0, 0, 0] inb_S1x16x260x260_S1x16x256x256_0_0_1_4 inb_S25x1x1x256x256_S1x1x1x256x256_9_0_0_0_0))
      (tapK x0 x1 ![0, 0, 2, 0] ![10, 0, 0, 0, 0] inb_S1x16x260x260_S1x16x256x256_0_0_2_0 inb_S25x1x1x256x256_S1x1x1x256x256_10_0_0_0_0))
      (tapK x0 x1 ![0, 0, 2, 1] ![11, 0, 0, 0, 0] inb_S1x16x260x260_S1x16x256x256_0_0_2_1 inb_S25x1x1x256x256_S1x1x1x256x256_11_0_0_0_0))
      (tapK x0 x1 ![0, 0, 2, 2] ![12, 0, 0, 0, 0] inb_S1x16x260x260_S1x16x256x256_0_0_2_2 inb_S25x1x1x256x256_S1x1x1x256x256_12_0_0_0_0))
      (tapK x0 x1 ![0, 0, 2, 3] ![13, 0, 0, 0, 0] inb_S1x16x260x260_S1x16x256x256_0_0_2_3 inb_S25x1x1x256x256_S1x1x1x256x256_13_0_0_0_0))
      (tapK x0 x1 ![0, 0, 2, 4] ![14, 0, 0, 0, 0] inb_S1x16x260x260_S1x16x256x256_0_0_2_4 inb_S25x1x1x256x256_S1x1x1x256x256_14_0_0_0_0))
      (tapK x0 x1 ![0, 0, 3, 0] ![15, 0, 0, 0, 0] inb_S1x16x260x260_S1x16x256x256_0_0_3_0 inb_S25x1x1x256x256_S1x1x1x256x256_15_0_0_0_0))
      (tapK x0 x1 ![0, 0, 3, 1] ![16, 0, 0, 0, 0] inb_S1x16x260x260_S1x16x256x256_0_0_3_1 inb_S25x1x1x256x256_S1x1x1x256x256_16_0_0_0_0))
      (tapK x0 x1 ![0, 0, 3, 2] ![17, 0, 0, 0, 0] inb_S1x16x260x260_S1x16x256x256_0_0_3_2 inb_S25x1x1x256x256_S1x1x1x256x256_17_0_0_0_0))
      (tapK x0 x1 ![0, 0, 3, 3] ![18, 0, 0, 0, 0] inb_S1x16x260x260_S1x16x256x256_0_0_3_3 inb_S25x1x1x256x256_S1x1x1x256x256_18_0_0_0_0))
      (tapK x0 x1 ![0, 0, 3, 4] ![19, 0, 0, 0, 0] inb_S1x16x260x260_S1x16x256x256_0_0_3_4 inb_S25x1x1x256x256_S1x1x1x256x256_19_0_0_0_0))
      (tapK x0 x1 ![0, 0, 4, 0] ![20, 0, 0, 0, 0] inb_S1x16x260x260_S1x16x256x256_0_0_4_0 inb_S25x1x1x256x256_S1x1x1x256x256_20_0_0_0_0))
      (tapK x0 x1 ![0, 0, 4, 1] ![21, 0, 0, 0, 0] inb_S1x16x260x260_S1x16x256x256_0_0_4_1 inb_S25x1x1x256x256_S1x1x1x256x256_21_0_0_0_0))
      (tapK x0 x1 ![0, 0, 4, 2] ![22, 0, 0, 0, 0] inb_S1x16x260x260_S1x16x256x256_0_0_4_2 inb_S25x1x1x256x256_S1x1x1x256x256_22_0_0_0_0))
      (tapK x0 x1 ![0, 0, 4, 3] ![23, 0, 0, 0, 0] inb_S1x16x260x260_S1x16x256x256_0_0_4_3 inb_S25x1x1x256x256_S1x1x1x256x256_23_0_0_0_0))
      (tapK x0 x1 ![0, 0, 4, 4] ![24, 0, 0, 0, 0] inb_S1x16x260x260_S1x16x256x256_0_0_4_4 inb_S25x1x1x256x256_S1x1x1x256x256_24_0_0_0_0)

theorem hz : (![0, 0, 0, 0] : Fin 4 → ℕ) = fun _ => 0 := funext fun a => by fin_cases a <;> rfl

/-- The body's one store covers the output block, so the block is its payload: the accumulator with the unit batch
    axis restored (the payload's definitions unfold to exactly these operations of the loaded windows). -/
theorem out_eq (x0 : Vec F S1x16x260x260 .f32) (x1 : Vec F S25x1x1x256x256 .f32) :
    out0_2 x0 x1 = shapeCast S1x16x256x256 (accK x0 x1) shapeCasts_S16x256x256_S1x16x256x256 := by
  unfold out0_2
  rw [View.canon_unit_zero hz]
  rfl

/-- The accumulator at an index is the block's window sum at the lifted index. -/
theorem accK_apply (x0 : Vec F S1x16x260x260 .f32) (x1 : Vec F S25x1x1x256x256 .f32) (z : S16x256x256.Idx) :
    accK x0 x1 z = fold25 (FloatOps.ofBits .f32 0x00000000#32) (blkTap x0 x1 (lift z)) := by
  unfold accK
  simp (disch := omega) only [tapK_apply]
  rfl

/-- THE OUTPUT BLOCK at a block index: the window sum over the block. -/
theorem out_apply (x0 : Vec F S1x16x260x260 .f32) (x1 : Vec F S25x1x1x256x256 .f32) (y : S1x16x256x256.Idx) :
    out0_2 x0 x1 y = fold25 (FloatOps.ofBits .f32 0x00000000#32) (blkTap x0 x1 y) := by
  have h1 : (y 1).val < 16 := (y 1).isLt
  have h2 : (y 2).val < 256 := (y 2).isLt
  have h3 : (y 3).val < 256 := (y 3).isLt
  have h0 : (y 0).val < 1 := (y 0).isLt
  let z : S16x256x256.Idx := ix3 (⟨(y 1).val, h1⟩ : Fin 16) (⟨(y 2).val, h2⟩ : Fin 256) (⟨(y 3).val, h3⟩ : Fin 256)
  rw [out_eq]
  refine (shapeCast_apply _ shapeCasts_S16x256x256_S1x16x256x256 y z (by
    rewrite [Shape.rowMajor_val_three, Shape.rowMajor_val_four]
    show ((y 1).val * 256 + (y 2).val) * 256 + (y 3).val = (((y 0).val * 16 + (y 1).val) * 256 + (y 2).val) * 256 + (y 3).val
    omega)).trans ?_
  exact accK_apply x0 x1 z

end Cert.KernelIdeal.Block

end
-- ==== Proof.KernelArray.lean ====
/-
  THE KERNEL'S RESULT ARRAY. The grid is 8 × 4: point (b, g) works on batch entry b and channels 16g … 16g + 15. Its
  padded-array block is block (b, g, 0, 0) of blocks [1, 16, 260, 260], its weight block is block (0, b, 0, 0, 0) of
  blocks [25, 1, 1, 256, 256], its output block is block (b, g, 0, 0) of blocks [1, 16, 256, 256]. So the output block's
  index (0, c, h, w) is the array's (b, 16g + c, h, w), the padded block's (0, c, h + p, w + q) is the padded array's
  (b, 16g + c, h + p, w + q), and the weight block's (5p + q, 0, 0, h, w) is the weights' (5p + q, b, 0, h, w): what point
  t writes back is block t of the window sum of the padded array and the weights. The 32 output blocks tile the
  array, so after the run the result array IS that window sum; the padded array is the pad of the first argument,
  written by the host operations before the region; the two arguments are left as they were.
-/
import proofs.«153330_j18502719111479_1_alg».proof.Proof.KernelBlock
import Idealize.ShloMosaic.Lib.StableHlo.Run

noncomputable section

namespace Cert.KernelIdeal.Whole

open Cert.KernelIdeal Cert.KernelIdeal.Gen Cert.KernelIdeal.Block Idealize.ShloMosaic Idealize.ShloMosaic.TcCoe Idealize.SL.Sem
open Idealize.ShloMosaic.ValueIdx Cert.WindowSum
open Idealize.ShloMosaic.Pipeline (Dat)

variable {F : FTy → Type} [FloatOps F]
variable (m : (ℓ : Loc nD τ sig) → Buf (Elt F) ℓ) (ρ : Dev nD → PrngReg)

/-- The printed index maps, decided over the 32 grid points: the padded array's block moves with the output's on the
    batch and channel-tile axes and stays at 0 on the other two; the weights' block is at the output's batch index on its
    second axis and at 0 elsewhere; the output's block indices stay in range. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 5) = 0 ∧ win0_1.index t (1 : Fin 5) = win0_2.index t (0 : Fin 4)
    ∧ win0_1.index t (2 : Fin 5) = 0 ∧ win0_1.index t (3 : Fin 5) = 0 ∧ win0_1.index t (4 : Fin 5) = 0
    ∧ win0_2.index t (2 : Fin 4) = 0 ∧ win0_2.index t (3 : Fin 4) = 0
    ∧ win0_2.index t (0 : Fin 4) ≤ 7 ∧ win0_2.index t (1 : Fin 4) ≤ 3 :=
  (by decide +kernel : ∀ t : Fin grid0.N, _)

/-- Every (batch entry, channel tile) is some point's output block. -/
theorem idx_onto : ∀ (b : Fin 8) (g : Fin 4), ∃ t : Fin cfg0.N, win0_2.index t = ![b.val, g.val, 0, 0] :=
  (by decide +kernel : ∀ (b : Fin 8) (g : Fin 4), ∃ t : Fin grid0.N, win0_2.index t = ![b.val, g.val, 0, 0])

/-- WHAT POINT `t` WRITES BACK is block `t` of the window sum of the padded array and the weights as the region finds them. -/
theorem flushed_eq (c : Dev nD) (t : Fin cfg0.N) :
    (dats m 0 c).flushed 2 t = ((cfg0.win 2).blk t).view.read (Elt F) (windowSum (V m c main_v0) (V m c main_arg1)) := by
  show (cfg0.win 2).cut (grid0.coords t) ((dats m 0 c).after 2 t) = _
  rw [after0_2]
  obtain ⟨e0, e1, e2, e3, f0, f1, f2, f3, f4, g2, g3, b0, b1⟩ := idx_facts t
  funext y
  show out0_2 (iblk m c 0 t) (iblk m c 1 t) y
    = windowSum (V m c main_v0) (V m c main_arg1) (((cfg0.win 2).blk t).view.emb y)
  refine (out_apply (iblk m c 0 t) (iblk m c 1 t) y).trans ?_
  refine fold25_congr _ _ _ (fun p q hp hq => ?_)
  have hy0 : (y 0).val < 1 := (y 0).isLt
  have hy1 : (y 1).val < 16 := (y 1).isLt
  have hy2 : (y 2).val < 256 := (y 2).isLt
  have hy3 : (y 3).val < 256 := (y 3).isLt
  show FloatOps.mulf (V m c main_v0 (((cfg0.win 0).blk t).view.emb (blkPadAt p q hp hq y)))
      (V m c main_arg1 (((cfg0.win 1).blk t).view.emb (blkWtAt p q hp hq y)))
    = FloatOps.mulf (V m c main_v0 (padAt p q hp hq (((cfg0.win 2).blk t).view.emb y)))
      (V m c main_arg1 (wtAt p q hp hq (((cfg0.win 2).blk t).view.emb y)))
  have hx : ((cfg0.win 0).blk t).view.emb (blkPadAt p q hp hq y) = padAt p q hp hq (((cfg0.win 2).blk t).view.emb y) := by
    funext a; apply Fin.ext
    match a with
    | ⟨0, _⟩ => show win0_0.index t (0 : Fin 4) * 1 + 1 * 0 = win0_2.index t (0 : Fin 4) * 1 + 1 * (y 0).val; omega
    | ⟨1, _⟩ => show win0_0.index t (1 : Fin 4) * 16 + 1 * (y 1).val = win0_2.index t (1 : Fin 4) * 16 + 1 * (y 1).val; omega
    | ⟨2, _⟩ => show win0_0.index t (2 : Fin 4) * 260 + 1 * ((y 2).val + p) = win0_2.index t (2 : Fin 4) * 256 + 1 * (y 2).val + p; omega
    | ⟨3, _⟩ => show win0_0.index t (3 : Fin 4) * 260 + 1 * ((y 3).val + q) = win0_2.index t (3 : Fin 4) * 256 + 1 * (y 3).val + q; omega
  have hw : ((cfg0.win 1).blk t).view.emb (blkWtAt p q hp hq y) = wtAt p q hp hq (((cfg0.win 2).blk t).view.emb y) := by
    funext a; apply Fin.ext
    match a with
    | ⟨0, _⟩ => show win0_1.index t (0 : Fin 5) * 25 + 1 * (5 * p + q) = 5 * p + q; omega
    | ⟨1, _⟩ => show win0_1.index t (1 : Fin 5) * 1 + 1 * 0 = win0_2.index t (0 : Fin 4) * 1 + 1 * (y 0).val; omega
    | ⟨2, _⟩ => show win0_1.index t (2 : Fin 5) * 1 + 1 * 0 = 0; omega
    | ⟨3, _⟩ => show win0_1.index t (3 : Fin 5) * 256 + 1 * (y 2).val = win0_2.index t (2 : Fin 4) * 256 + 1 * (y 2).val; omega
    | ⟨4, _⟩ => show win0_1.index t (4 : Fin 5) * 256 + 1 * (y 3).val = win0_2.index t (3 : Fin 4) * 256 + 1 * (y 3).val; omega
  rw [hx, hw]

/-- An index of the result array is in point `t`'s block iff each coordinate is in the block's range on its axis. -/
theorem mem_blk (t : Fin cfg0.N) (i : S8x64x256x256.Idx) :
    i ∈ ((cfg0.win 2).blk t).view.set ↔ ∀ a : Fin 4, win0_2.index t a * S1x16x256x256.size a ≤ (i a).val
      ∧ (i a).val < win0_2.index t a * S1x16x256x256.size a + S1x16x256x256.size a := by
  show i ∈ ((View.whole main_v1).slice (win0_2.rect t)).set ↔ _
  rw [View.set_slice_whole, Rect.mem_set_unit]
  exact Iff.rfl

/-- The output blocks tile the result array: index (b, c', h, w) is in the block of the point with batch entry b and
    channel tile c' / 16. -/
theorem cover (i : S8x64x256x256.Idx) :
    ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 256 := (i 2).isLt
  have hi3 : (i 3).val < 256 := (i 3).isLt
  obtain ⟨t, ht⟩ := idx_onto ⟨(i 0).val, hi0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- THE RESULT ARRAY after the run: the window sum of the padded array and the weights as the region finds them. -/
theorem final (c : Dev nD) : (dats m 0 c).arrAt 2 cfg0.N = windowSum (V m c main_v0) (V m c main_arg1) :=
  (dats m 0 c).arrAt_eq_of_cover 2 _ (fun t _ => flushed_eq m c t) cover

/-- The zero-padded input: two zeros before and after each of the last two axes. -/
def padded (x : FVec F S8x64x256x256 .f32) : FVec F S8x64x260x260 .f32 :=
  pad S8x64x260x260 ![0, 0, 2, 2] ![0, 0, 2, 2] ![0, 0, 0, 0] x (sitofp .f32 (constantI S_ 32 0#32)) pads_S8x64x256x256_S8x64x260x260_000_000_220_220 h_S_

/-- The host operations before the region leave the pad of the first argument in the padded array's buffer. -/
theorem V_padded (c : Dev nD) :
    (V m c main_v0 : S8x64x260x260.Idx → F .f32) = padded (m ((c : Thread nD τ).loc main_arg0)) := by
  dsimp only [Gen.V]
  simp only [hostOps0, hostOps0_1, List.flatten_cons, List.flatten_nil, List.append_nil, List.cons_append, List.nil_append]
  after_results
  rfl

/-- The kernel's run, read: every weakly fair execution terminates with the result array at the window sum of the
    padded first argument and the second argument, the arguments unchanged. -/
theorem run : θ_run defs (onTc (τ := τ) (main (F := F))) ⟨m, fun _ => 0, ρ⟩ fun r => ∀ c : Dev nD,
      r.2.mem ((c : Thread nD τ).loc main_v1)
        = windowSum (padded (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans ((final m c).trans (by rw [V_padded, V_main_arg1])),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.KernelIdeal.Whole

end
-- ==== Proof.ReferenceLine.lean ====
/-
  The reference's @main is ONE line of 155 host operations: the five that build the zero-padded input and the
  all-zero accumulator, then the five rows of the 5×5 window, five taps a row (the literal lists are laid out in
  ReferenceStretches). That the printed program is this line, that every operation touches only the TensorCore's
  buffers and that none allocates are what the library's run of a straight line asks; a fact about every operation of
  a concatenation is proved stretch by stretch.
-/
import proofs.«153330_j18502719111479_1_alg».proof.Proof.ReferenceStretches

noncomputable section

namespace Cert.ReferenceIdeal.Stretches

open Cert.ReferenceIdeal Cert.ReferenceIdeal.Gen Idealize.ShloMosaic Idealize.ShloMosaic.TcCoe Idealize.SL.Sem Idealize.ShloMosaic.StableHlo

variable {F : FTy → Type} [FloatOps F]

/-- @main's 155 operations: the six stretches in order. -/
abbrev allOps : List (HloOp τ sig (Elt F)) := headOps ++ (rowOps0 ++ (rowOps1 ++ (rowOps2 ++ (rowOps3 ++ rowOps4))))

set_option maxRecDepth 8192 in
set_option maxHeartbeats 4000000 in
/-- The printed @main (three windows of statements, the call of the padding function unfolded) is the line of
    these operations. -/
theorem main_eq (c : Dev nD) : main (F := F) c = seq allOps := rfl

/-- The signature scopes no TensorCore buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- What holds of every operation of two stretches holds of every operation of their concatenation. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

/-- Every operation touches TensorCore buffers only. -/
theorem allOps_sub : (allOps : List (HloOp τ sig (Elt F))).Forall fun op => op.bufs ⊆ tcRefs τ sig :=
  forall_append headOps_sub (forall_append rowOps0_sub (forall_append rowOps1_sub (forall_append rowOps2_sub
    (forall_append rowOps3_sub rowOps4_sub))))

theorem headOps_fresh : (headOps : List (HloOp τ sig (Elt F))).Forall fun op => op.fresh = ∅ := by
  simp only [List.Forall]; repeat' constructor
theorem rowOps0_fresh : (rowOps0 : List (HloOp τ sig (Elt F))).Forall fun op => op.fresh = ∅ := by
  simp only [List.Forall]; repeat' constructor
theorem rowOps1_fresh : (rowOps1 : List (HloOp τ sig (Elt F))).Forall fun op => op.fresh = ∅ := by
  simp only [List.Forall]; repeat' constructor
theorem rowOps2_fresh : (rowOps2 : List (HloOp τ sig (Elt F))).Forall fun op => op.fresh = ∅ := by
  simp only [List.Forall]; repeat' constructor
theorem rowOps3_fresh : (rowOps3 : List (HloOp τ sig (Elt F))).Forall fun op => op.fresh = ∅ := by
  simp only [List.Forall]; repeat' constructor
theorem rowOps4_fresh : (rowOps4 : List (HloOp τ sig (Elt F))).Forall fun op => op.fresh = ∅ := by
  simp only [List.Forall]; repeat' constructor

/-- No operation allocates a buffer: each determines its result. -/
theorem allOps_fresh : ∀ op ∈ (allOps : List (HloOp τ sig (Elt F))), op.fresh = ∅ :=
  List.forall_iff_forall_mem.mp (forall_append headOps_fresh (forall_append rowOps0_fresh (forall_append rowOps1_fresh
    (forall_append rowOps2_fresh (forall_append rowOps3_fresh rowOps4_fresh)))))

/-- The buffers after two stretches run in order are the second's results over the first's. -/
theorem after_stretches : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_stretches l₁ l₂]

/-- What the buffers hold after the whole line: the rows' results over the head's, stretch after stretch. -/
theorem after_allOps (V : Valuation τ sig (Elt F)) :
    after allOps V = after rowOps4 (after rowOps3 (after rowOps2 (after rowOps1 (after rowOps0 (after headOps V))))) := by
  simp only [allOps, after_stretches]

end Cert.ReferenceIdeal.Stretches

end
-- ==== Proof.ReferenceTap.lean ====
/-
  ONE TAP of the reference, read at an index. For the tap (p, q) the reference takes the slice of the padded array at
  offsets (0, 0, p, q) — extent [8, 64, 256, 256] —, the slice [5p + q : 5p + q + 1] of the weights re-laid from
  [1, 8, 1, 256, 256] to [8, 1, 256, 256] and spread over the 64 channels, and multiplies them. At result index
  (b, c, h, w) that product is `xp[b, c, h + p, w + q] · wt[5p + q, b, 0, h, w]`: the slice shifts the last two
  coordinates, the reshape keeps the row-major position (the two unit axes carry nothing), the broadcast forgets c.
-/
import proofs.«153330_j18502719111479_1_alg».proof.Proof.Gen.ReferenceIdeal
import proofs.«153330_j18502719111479_1_alg».proof.Proof.WindowSum
import Idealize.ShloMosaic.Lib.Pipeline.Value

noncomputable section

namespace Cert.ReferenceIdeal.Stretches

open Cert.ReferenceIdeal Cert.ReferenceIdeal.Gen Idealize.ShloMosaic Idealize.ShloMosaic.TcCoe Idealize.ShloMosaic.ValueIdx Cert.WindowSum

variable {F : FTy → Type} [FloatOps F]

/-- One tap as the reference computes it, over the whole arrays: the padded array sliced at `off`, times the weights
    sliced at `koff`, re-laid and spread over the channels. -/
def tapV (xp : FVec F S8x64x260x260 .f32) (wt : FVec F S25x8x1x256x256 .f32) (off : Fin 4 → ℕ) (koff : Fin 5 → ℕ)
    (hs : S8x64x260x260.Slices off S8x64x256x256) (hs' : S25x8x1x256x256.Slices koff S1x8x1x256x256) : FVec F S8x64x256x256 .f32 :=
  mulf (extractStridedSlice S8x64x256x256 off xp hs)
    (broadcastInDim S8x64x256x256 ![0, 1, 2, 3] bcast_S8x1x256x256_S8x64x256x256_0_1_2_3
      (shapeCast S8x1x256x256 (extractStridedSlice S1x8x1x256x256 koff wt hs') shapeCasts_S1x8x1x256x256_S8x1x256x256))

/-- The tap (p, q), k = 5p + q, at result index i is the specification's tap there. -/
theorem tapV_apply (p q k : ℕ) (hp : p ≤ 4) (hq : q ≤ 4) (hk : k = 5 * p + q)
    (xp : FVec F S8x64x260x260 .f32) (wt : FVec F S25x8x1x256x256 .f32)
    (hs : S8x64x260x260.Slices ![0, 0, p, q] S8x64x256x256) (hs' : S25x8x1x256x256.Slices ![k, 0, 0, 0, 0] S1x8x1x256x256) :
    tapV xp wt ![0, 0, p, q] ![k, 0, 0, 0, 0] hs hs' = fun i => tap xp wt i p q hp hq := by
  subst hk
  funext i
  have h0 : (i 0).val < 8 := (i 0).isLt
  have h2 : (i 2).val < 256 := (i 2).isLt
  have h3 : (i 3).val < 256 := (i 3).isLt
  -- the index of the re-laid weights [8, 1, 256, 256] the broadcast reads, and of the slice [1, 8, 1, 256, 256] under it
  let j : S8x1x256x256.Idx := ix4 (⟨(i 0).val, h0⟩ : Fin 8) (0 : Fin 1) (⟨(i 2).val, h2⟩ : Fin 256) (⟨(i 3).val, h3⟩ : Fin 256)
  let l : S1x8x1x256x256.Idx := ix5 (0 : Fin 1) (⟨(i 0).val, h0⟩ : Fin 8) (0 : Fin 1) (⟨(i 2).val, h2⟩ : Fin 256) (⟨(i 3).val, h3⟩ : Fin 256)
  show FloatOps.mulf (extractStridedSlice S8x64x256x256 ![0, 0, p, q] xp hs i)
      (broadcastInDim S8x64x256x256 ![0, 1, 2, 3] bcast_S8x1x256x256_S8x64x256x256_0_1_2_3
        (shapeCast S8x1x256x256 (extractStridedSlice S1x8x1x256x256 ![5 * p + q, 0, 0, 0, 0] wt hs') shapeCasts_S1x8x1x256x256_S8x1x256x256) i)
    = FloatOps.mulf (xp (padAt p q hp hq i)) (wt (wtAt p q hp hq i))
  refine congrArg₂ FloatOps.mulf ?_ ?_
  · exact extractStridedSlice_apply ![0, 0, p, q] xp hs i (padAt p q hp hq i) (fun a => match a with
      | ⟨0, _⟩ => by show (i 0).val = 0 + (i 0).val; omega
      | ⟨1, _⟩ => by show (i 1).val = 0 + (i 1).val; omega
      | ⟨2, _⟩ => by show (i 2).val + p = p + (i 2).val; omega
      | ⟨3, _⟩ => by show (i 3).val + q = q + (i 3).val; omega)
  · refine (broadcastInDim_apply _ bcast_S8x1x256x256_S8x64x256x256_0_1_2_3 _ i j (fun a => match a with
      | ⟨0, _⟩ => by show (i 0).val = if (8 : Nat) = 1 then 0 else (i 0).val; rw [if_neg (by decide)]
      | ⟨1, _⟩ => by show 0 = if (1 : Nat) = 1 then 0 else (i 1).val; rw [if_pos rfl]
      | ⟨2, _⟩ => by show (i 2).val = if (256 : Nat) = 1 then 0 else (i 2).val; rw [if_neg (by decide)]
      | ⟨3, _⟩ => by show (i 3).val = if (256 : Nat) = 1 then 0 else (i 3).val; rw [if_neg (by decide)])).trans ?_
    refine (shapeCast_apply _ shapeCasts_S1x8x1x256x256_S8x1x256x256 j l (by
      rewrite [Shape.rowMajor_val_five, Shape.rowMajor_val_four]
      show (((0 * 8 + (i 0).val) * 1 + 0) * 256 + (i 2).val) * 256 + (i 3).val = (((i 0).val * 1 + 0) * 256 + (i 2).val) * 256 + (i 3).val
      omega)).trans ?_
    exact extractStridedSlice_apply ![5 * p + q, 0, 0, 0, 0] wt hs' l (wtAt p q hp hq i) (fun a => match a with
      | ⟨0, _⟩ => by show 5 * p + q = 5 * p + q + 0; omega
      | ⟨1, _⟩ => by show (i 0).val = 0 + (i 0).val; omega
      | ⟨2, _⟩ => by show 0 = 0 + 0; omega
      | ⟨3, _⟩ => by show (i 2).val = 0 + (i 2).val; omega
      | ⟨4, _⟩ => by show (i 3).val = 0 + (i 3).val; omega)

end Cert.ReferenceIdeal.Stretches

end
-- ==== Proof.ReferenceRows.lean ====
/-
  What each stretch of the reference's line leaves in the buffers, as functions of what it found there. The head
  leaves the zero-padded input in its buffer and zeros in the accumulator's first buffer; a row p takes the accumulator
  it finds, adds its five taps (p, 0) … (p, 4) in that order — each tap of the padded array and the weights it finds —
  and leaves the sum in the row's last buffer; no stretch writes the padded array, the weights or the input.
-/
import proofs.«153330_j18502719111479_1_alg».proof.Proof.ReferenceStretches
import proofs.«153330_j18502719111479_1_alg».proof.Proof.ReferenceTap

noncomputable section

namespace Cert.ReferenceIdeal.Stretches

open Cert.ReferenceIdeal Cert.ReferenceIdeal.Gen Idealize.ShloMosaic Idealize.ShloMosaic.TcCoe Idealize.SL.Sem Idealize.ShloMosaic.StableHlo

variable {F : FTy → Type} [FloatOps F]

/-! ## The head -/

/-- The zero-padded input: two zeros before and after each of the last two axes. -/
def padded (x : FVec F S8x64x256x256 .f32) : FVec F S8x64x260x260 .f32 :=
  pad S8x64x260x260 ![0, 0, 2, 2] ![0, 0, 2, 2] ![0, 0, 0, 0] x (sitofp .f32 (constantI S_ 32 0#32)) pads_S8x64x256x256_S8x64x260x260_000_000_220_220 h_S_

/-- The all-zero accumulator. -/
def zeros : FVec F S8x64x256x256 .f32 :=
  broadcastInDim S8x64x256x256 ![] bcast_S_S8x64x256x256 (constant S_ .f32 0x00000000#32)

theorem head_padded (V : Valuation τ sig (Elt F)) :
    after headOps V (Proc.devRef .tc main_v0) = padded (V (Proc.devRef .tc main_arg0)) := by
  after_results_simp; rfl
theorem head_zeros (V : Valuation τ sig (Elt F)) :
    after headOps V (Proc.devRef .tc main_v1) = zeros := by
  after_results_simp; rfl
theorem head_arg0 (V : Valuation τ sig (Elt F)) :
    after headOps V (Proc.devRef .tc main_arg0) = V (Proc.devRef .tc main_arg0) := by
  after_results_simp
theorem head_arg1 (V : Valuation τ sig (Elt F)) :
    after headOps V (Proc.devRef .tc main_arg1) = V (Proc.devRef .tc main_arg1) := by
  after_results_simp

/-! ## Row 0 -/

theorem row0_acc (V : Valuation τ sig (Elt F)) :
    after rowOps0 V (Proc.devRef .tc main_v31) =
      addf (addf (addf (addf (addf (V (Proc.devRef .tc main_v1))
        (tapV (V (Proc.devRef .tc main_v0)) (V (Proc.devRef .tc main_arg1)) ![0, 0, 0, 0] ![0, 0, 0, 0, 0] slices_S8x64x260x260_S8x64x256x256_0_0_0_0 slices_S25x8x1x256x256_S1x8x1x256x256_0_0_0_0_0))
        (tapV (V (Proc.devRef .tc main_v0)) (V (Proc.devRef .tc main_arg1)) ![0, 0, 0, 1] ![1, 0, 0, 0, 0] slices_S8x64x260x260_S8x64x256x256_0_0_0_1 slices_S25x8x1x256x256_S1x8x1x256x256_1_0_0_0_0))
        (tapV (V (Proc.devRef .tc main_v0)) (V (Proc.devRef .tc main_arg1)) ![0, 0, 0, 2] ![2, 0, 0, 0, 0] slices_S8x64x260x260_S8x64x256x256_0_0_0_2 slices_S25x8x1x256x256_S1x8x1x256x256_2_0_0_0_0))
        (tapV (V (Proc.devRef .tc main_v0)) (V (Proc.devRef .tc main_arg1)) ![0, 0, 0, 3] ![3, 0, 0, 0, 0] slices_S8x64x260x260_S8x64x256x256_0_0_0_3 slices_S25x8x1x256x256_S1x8x1x256x256_3_0_0_0_0))
        (tapV (V (Proc.devRef .tc main_v0)) (V (Proc.devRef .tc main_arg1)) ![0, 0, 0, 4] ![4, 0, 0, 0, 0] slices_S8x64x260x260_S8x64x256x256_0_0_0_4 slices_S25x8x1x256x256_S1x8x1x256x256_4_0_0_0_0) := by
  after_results_simp; rfl
theorem row0_padded (V : Valuation τ sig (Elt F)) :
    after rowOps0 V (Proc.devRef .tc main_v0) = V (Proc.devRef .tc main_v0) := by
  after_results_simp
theorem row0_arg0 (V : Valuation τ sig (Elt F)) :
    after rowOps0 V (Proc.devRef .tc main_arg0) = V (Proc.devRef .tc main_arg0) := by
  after_results_simp
theorem row0_arg1 (V : Valuation τ sig (Elt F)) :
    after rowOps0 V (Proc.devRef .tc main_arg1) = V (Proc.devRef .tc main_arg1) := by
  after_results_simp

/-! ## Row 1 -/

theorem row1_acc (V : Valuation τ sig (Elt F)) :
    after rowOps1 V (Proc.devRef .tc main_v61) =
      addf (addf (addf (addf (addf (V (Proc.devRef .tc main_v31))
        (tapV (V (Proc.devRef .tc main_v0)) (V (Proc.devRef .tc main_arg1)) ![0, 0, 1, 0] ![5, 0, 0, 0, 0] slices_S8x64x260x260_S8x64x256x256_0_0_1_0 slices_S25x8x1x256x256_S1x8x1x256x256_5_0_0_0_0))
        (tapV (V (Proc.devRef .tc main_v0)) (V (Proc.devRef .tc main_arg1)) ![0, 0, 1, 1] ![6, 0, 0, 0, 0] slices_S8x64x260x260_S8x64x256x256_0_0_1_1 slices_S25x8x1x256x256_S1x8x1x256x256_6_0_0_0_0))
        (tapV (V (Proc.devRef .tc main_v0)) (V (Proc.devRef .tc main_arg1)) ![0, 0, 1, 2] ![7, 0, 0, 0, 0] slices_S8x64x260x260_S8x64x256x256_0_0_1_2 slices_S25x8x1x256x256_S1x8x1x256x256_7_0_0_0_0))
        (tapV (V (Proc.devRef .tc main_v0)) (V (Proc.devRef .tc main_arg1)) ![0, 0, 1, 3] ![8, 0, 0, 0, 0] slices_S8x64x260x260_S8x64x256x256_0_0_1_3 slices_S25x8x1x256x256_S1x8x1x256x256_8_0_0_0_0))
        (tapV (V (Proc.devRef .tc main_v0)) (V (Proc.devRef .tc main_arg1)) ![0, 0, 1, 4] ![9, 0, 0, 0, 0] slices_S8x64x260x260_S8x64x256x256_0_0_1_4 slices_S25x8x1x256x256_S1x8x1x256x256_9_0_0_0_0) := by
  after_results_simp; rfl
theorem row1_padded (V : Valuation τ sig (Elt F)) :
    after rowOps1 V (Proc.devRef .tc main_v0) = V (Proc.devRef .tc main_v0) := by
  after_results_simp
theorem row1_arg0 (V : Valuation τ sig (Elt F)) :
    after rowOps1 V (Proc.devRef .tc main_arg0) = V (Proc.devRef .tc main_arg0) := by
  after_results_simp
theorem row1_arg1 (V : Valuation τ sig (Elt F)) :
    after rowOps1 V (Proc.devRef .tc main_arg1) = V (Proc.devRef .tc main_arg1) := by
  after_results_simp

/-! ## Row 2 -/

theorem row2_acc (V : Valuation τ sig (Elt F)) :
    after rowOps2 V (Proc.devRef .tc main_v91) =
      addf (addf (addf (addf (addf (V (Proc.devRef .tc main_v61))
        (tapV (V (Proc.devRef .tc main_v0)) (V (Proc.devRef .tc main_arg1)) ![0, 0, 2, 0] ![10, 0, 0, 0, 0] slices_S8x64x260x260_S8x64x256x256_0_0_2_0 slices_S25x8x1x256x256_S1x8x1x256x256_10_0_0_0_0))
        (tapV (V (Proc.devRef .tc main_v0)) (V (Proc.devRef .tc main_arg1)) ![0, 0, 2, 1] ![11, 0, 0, 0, 0] slices_S8x64x260x260_S8x64x256x256_0_0_2_1 slices_S25x8x1x256x256_S1x8x1x256x256_11_0_0_0_0))
        (tapV (V (Proc.devRef .tc main_v0)) (V (Proc.devRef .tc main_arg1)) ![0, 0, 2, 2] ![12, 0, 0, 0, 0] slices_S8x64x260x260_S8x64x256x256_0_0_2_2 slices_S25x8x1x256x256_S1x8x1x256x256_12_0_0_0_0))
        (tapV (V (Proc.devRef .tc main_v0)) (V (Proc.devRef .tc main_arg1)) ![0, 0, 2, 3] ![13, 0, 0, 0, 0] slices_S8x64x260x260_S8x64x256x256_0_0_2_3 slices_S25x8x1x256x256_S1x8x1x256x256_13_0_0_0_0))
        (tapV (V (Proc.devRef .tc main_v0)) (V (Proc.devRef .tc main_arg1)) ![0, 0, 2, 4] ![14, 0, 0, 0, 0] slices_S8x64x260x260_S8x64x256x256_0_0_2_4 slices_S25x8x1x256x256_S1x8x1x256x256_14_0_0_0_0) := by
  after_results_simp; rfl
theorem row2_padded (V : Valuation τ sig (Elt F)) :
    after rowOps2 V (Proc.devRef .tc main_v0) = V (Proc.devRef .tc main_v0) := by
  after_results_simp
theorem row2_arg0 (V : Valuation τ sig (Elt F)) :
    after rowOps2 V (Proc.devRef .tc main_arg0) = V (Proc.devRef .tc main_arg0) := by
  after_results_simp
theorem row2_arg1 (V : Valuation τ sig (Elt F)) :
    after rowOps2 V (Proc.devRef .tc main_arg1) = V (Proc.devRef .tc main_arg1) := by
  after_results_simp

/-! ## Row 3 -/

theorem row3_acc (V : Valuation τ sig (Elt F)) :
    after rowOps3 V (Proc.devRef .tc main_v121) =
      addf (addf (addf (addf (addf (V (Proc.devRef .tc main_v91))
        (tapV (V (Proc.devRef .tc main_v0)) (V (Proc.devRef .tc main_arg1)) ![0, 0, 3, 0] ![15, 0, 0, 0, 0] slices_S8x64x260x260_S8x64x256x256_0_0_3_0 slices_S25x8x1x256x256_S1x8x1x256x256_15_0_0_0_0))
        (tapV (V (Proc.devRef .tc main_v0)) (V (Proc.devRef .tc main_arg1)) ![0, 0, 3, 1] ![16, 0, 0, 0, 0] slices_S8x64x260x260_S8x64x256x256_0_0_3_1 slices_S25x8x1x256x256_S1x8x1x256x256_16_0_0_0_0))
        (tapV (V (Proc.devRef .tc main_v0)) (V (Proc.devRef .tc main_arg1)) ![0, 0, 3, 2] ![17, 0, 0, 0, 0] slices_S8x64x260x260_S8x64x256x256_0_0_3_2 slices_S25x8x1x256x256_S1x8x1x256x256_17_0_0_0_0))
        (tapV (V (Proc.devRef .tc main_v0)) (V (Proc.devRef .tc main_arg1)) ![0, 0, 3, 3] ![18, 0, 0, 0, 0] slices_S8x64x260x260_S8x64x256x256_0_0_3_3 slices_S25x8x1x256x256_S1x8x1x256x256_18_0_0_0_0))
        (tapV (V (Proc.devRef .tc main_v0)) (V (Proc.devRef .tc main_arg1)) ![0, 0, 3, 4] ![19, 0, 0, 0, 0] slices_S8x64x260x260_S8x64x256x256_0_0_3_4 slices_S25x8x1x256x256_S1x8x1x256x256_19_0_0_0_0) := by
  after_results_simp; rfl
theorem row3_padded (V : Valuation τ sig (Elt F)) :
    after rowOps3 V (Proc.devRef .tc main_v0) = V (Proc.devRef .tc main_v0) := by
  after_results_simp
theorem row3_arg0 (V : Valuation τ sig (Elt F)) :
    after rowOps3 V (Proc.devRef .tc main_arg0) = V (Proc.devRef .tc main_arg0) := by
  after_results_simp
theorem row3_arg1 (V : Valuation τ sig (Elt F)) :
    after rowOps3 V (Proc.devRef .tc main_arg1) = V (Proc.devRef .tc main_arg1) := by
  after_results_simp

/-! ## Row 4 -/

theorem row4_acc (V : Valuation τ sig (Elt F)) :
    after rowOps4 V (Proc.devRef .tc main_v151) =
      addf (addf (addf (addf (addf (V (Proc.devRef .tc main_v121))
        (tapV (V (Proc.devRef .tc main_v0)) (V (Proc.devRef .tc main_arg1)) ![0, 0, 4, 0] ![20, 0, 0, 0, 0] slices_S8x64x260x260_S8x64x256x256_0_0_4_0 slices_S25x8x1x256x256_S1x8x1x256x256_20_0_0_0_0))
        (tapV (V (Proc.devRef .tc main_v0)) (V (Proc.devRef .tc main_arg1)) ![0, 0, 4, 1] ![21, 0, 0, 0, 0] slices_S8x64x260x260_S8x64x256x256_0_0_4_1 slices_S25x8x1x256x256_S1x8x1x256x256_21_0_0_0_0))
        (tapV (V (Proc.devRef .tc main_v0)) (V (Proc.devRef .tc main_arg1)) ![0, 0, 4, 2] ![22, 0, 0, 0, 0] slices_S8x64x260x260_S8x64x256x256_0_0_4_2 slices_S25x8x1x256x256_S1x8x1x256x256_22_0_0_0_0))
        (tapV (V (Proc.devRef .tc main_v0)) (V (Proc.devRef .tc main_arg1)) ![0, 0, 4, 3] ![23, 0, 0, 0, 0] slices_S8x64x260x260_S8x64x256x256_0_0_4_3 slices_S25x8x1x256x256_S1x8x1x256x256_23_0_0_0_0))
        (tapV (V (Proc.devRef .tc main_v0)) (V (Proc.devRef .tc main_arg1)) ![0, 0, 4, 4] ![24, 0, 0, 0, 0] slices_S8x64x260x260_S8x64x256x256_0_0_4_4 slices_S25x8x1x256x256_S1x8x1x256x256_24_0_0_0_0) := by
  after_results_simp; rfl
theorem row4_arg0 (V : Valuation τ sig (Elt F)) :
    after rowOps4 V (Proc.devRef .tc main_arg0) = V (Proc.devRef .tc main_arg0) := by
  after_results_simp
theorem row4_arg1 (V : Valuation τ sig (Elt F)) :
    after rowOps4 V (Proc.devRef .tc main_arg1) = V (Proc.devRef .tc main_arg1) := by
  after_results_simp

end Cert.ReferenceIdeal.Stretches

end
-- ==== Proof.ReferenceRun.lean ====
/-
  THE REFERENCE'S RESULT. Running the line stretch by stretch, the last accumulator is zeros plus the 25 taps of the
  padded input and the weights, added from the left in row-major tap order; read at an index that is the
  specification's window sum (each tap by the one-tap lemma; the nest of sums is the specification's by unfolding).
  The line never writes its two arguments. With the library's run of a straight line this gives the reference's run:
  every weakly fair execution terminates with the result buffer at the window sum of the padded first argument and
  the second, the arguments unchanged.
-/
import proofs.«153330_j18502719111479_1_alg».proof.Proof.ReferenceLine
import proofs.«153330_j18502719111479_1_alg».proof.Proof.ReferenceRows

noncomputable section

namespace Cert.ReferenceIdeal.Stretches

open Cert.ReferenceIdeal Cert.ReferenceIdeal.Gen Idealize.ShloMosaic Idealize.ShloMosaic.TcCoe Idealize.SL.Sem Idealize.ShloMosaic.StableHlo
open Cert.WindowSum

variable {F : FTy → Type} [FloatOps F]

/-- After the whole line the result buffer holds the window sum of the padded input and the weights. -/
theorem line_result (V : Valuation τ sig (Elt F)) :
    after allOps V (Proc.devRef .tc main_v151)
      = windowSum (padded (V (Proc.devRef .tc main_arg0))) (V (Proc.devRef .tc main_arg1)) := by
  rw [after_allOps, row4_acc, row3_acc, row3_padded, row3_arg1, row2_acc, row2_padded, row2_arg1, row1_acc, row1_padded, row1_arg1,
    row0_acc, row0_padded, row0_arg1, head_zeros, head_padded, head_arg1]
  simp (disch := omega) only [tapV_apply]
  funext i
  rfl

/-- The line leaves its first argument as it found it. -/
theorem line_arg0 (V : Valuation τ sig (Elt F)) :
    after allOps V (Proc.devRef .tc main_arg0) = V (Proc.devRef .tc main_arg0) := by
  rw [after_allOps, row4_arg0, row3_arg0, row2_arg0, row1_arg0, row0_arg0, head_arg0]

/-- The line leaves its second argument as it found it. -/
theorem line_arg1 (V : Valuation τ sig (Elt F)) :
    after allOps V (Proc.devRef .tc main_arg1) = V (Proc.devRef .tc main_arg1) := by
  rw [after_allOps, row4_arg1, row3_arg1, row2_arg1, row1_arg1, row0_arg1, head_arg1]

/-- On every device, from any memory with zero counters: every weakly fair execution of the reference terminates, the
    result at the window sum of the padded first argument and the second argument, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v151)
        = windowSum (padded (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v151).trans (line_result _), (h c main_arg0).trans (line_arg0 _),
      (h c main_arg1).trans (line_arg1 _)⟩)
    (run_seq scopedRefs_eq scopedSems_eq defs main (fun _ => allOps) main_eq (fun _ => allOps_sub) m ρ (fun _ => allOps_fresh))

end Cert.ReferenceIdeal.Stretches

end
-- ==== Proof.lean ====
/-
  The certificate of a 5×5 shifted-window multiply-accumulate with per-pixel weights shared across channels
  ("involution"): Z[b, c, h, w] = Σ over the 25 taps (p, q) of xp[b, c, h + p, w + q] · weights[5p + q, b, 0, h, w],
  xp the input zero-padded by two on each side of its last two axes.

  The kernel pads on the host, then runs a Pallas region over a grid of 8 batch entries × 4 channel tiles of 16: each
  point loads the 25 shifted [16, 256, 256] windows of its padded block and the 25 weight planes of its batch entry and
  accumulates the products onto zero, tap by tap in row-major order, storing the whole output block. The reference pads
  the same way and adds the 25 sliced-and-broadcast products onto a zero array in the same order. So both results
  are ONE function of the padded input and the weights — the specification's window sum (Proof/WindowSum.lean), stated
  over any float instance with its additions nested exactly as both programs nest them —, and no law of the extended
  reals is needed: the precondition is never opened.

  Kernel side: the output block at a block index (Proof/KernelTap.lean: one tap; Proof/KernelBlock.lean: the 25 of
  them under the body's one covering store), then from blocks to the array (Proof/KernelArray.lean: the index maps, the
  tiling cover, the host pad before the region). Reference side: @main as a line of 155 host operations run stretch by
  stretch, a row of five taps at a time (Proof/ReferenceStretches.lean, ReferenceLine.lean, ReferenceRows.lean), each tap
  read at an index (Proof/ReferenceTap.lean), and its run (Proof/ReferenceRun.lean). The frames of the two kernel programs
  are the generated frame certificates; the reference's frame is its run with the result dropped; the idealization
  rewrote nothing, so `preserves` is trivial.
-/
import proofs.«153330_j18502719111479_1_alg».proof.Defs
import proofs.«153330_j18502719111479_1_alg».proof.Proof.Gen.Kernel
import proofs.«153330_j18502719111479_1_alg».proof.Proof.Gen.Kernel.Skeleton
import proofs.«153330_j18502719111479_1_alg».proof.Proof.Gen.Kernel.Launch
import proofs.«153330_j18502719111479_1_alg».proof.Proof.Gen.Kernel.Points
import proofs.«153330_j18502719111479_1_alg».proof.Proof.Gen.Kernel.Frame
import proofs.«153330_j18502719111479_1_alg».proof.Proof.Gen.KernelIdeal
import proofs.«153330_j18502719111479_1_alg».proof.Proof.Gen.KernelIdeal.Skeleton
import proofs.«153330_j18502719111479_1_alg».proof.Proof.Gen.KernelIdeal.Launch
import proofs.«153330_j18502719111479_1_alg».proof.Proof.Gen.KernelIdeal.Points
import proofs.«153330_j18502719111479_1_alg».proof.Proof.Gen.KernelIdeal.Frame
import proofs.«153330_j18502719111479_1_alg».proof.Proof.Gen.ReferenceIdeal
import proofs.«153330_j18502719111479_1_alg».proof.Proof.Gen.Pre_finite_inputs
import proofs.«153330_j18502719111479_1_alg».proof.Proof.KernelArray
import proofs.«153330_j18502719111479_1_alg».proof.Proof.ReferenceRun
import Idealize.ShloMosaic.Adequacy
import Idealize.ShloMosaic.Init

noncomputable section

namespace Cert.Proof

open Idealize.ShloMosaic Idealize.ShloMosaic.TcCoe Idealize.SL.Sem

/-- The kernel as printed runs and leaves its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments: its run, the result dropped. -/
theorem frame_referenceIdeal : Cert.frame_ReferenceIdeal := fun m ρ _ =>
  (θ_run Cert.ReferenceIdeal.defs _ _).mono (fun _ h c => (h c).2) (Cert.ReferenceIdeal.Stretches.run (F := Ideal) m ρ)

/-- The ideal pass rewrote no operation. -/
theorem preserves : Cert.preserves_Kernel_KernelIdeal := trivial

/-- Both programs end with the window sum of the padded first argument and the second: the kernel's result array by
    its blocks, the reference's by its line of operations; the pads are one operation of arguments that agree. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Stretches.run (F := Ideal) m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
